-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S8x2048x3 : Shape := ⟨3, ![8, 2048, 3]⟩
abbrev S8x2048x32 : Shape := ⟨3, ![8, 2048, 32]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S128x64 .f32) (main_arg6 : FVec F S128 .f32) (main_arg7 : FVec F S256x128 .f32) (main_arg8 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S8x16384x3 .f32) (main_arg1 : FVec F S8x2048x3 .f32) (main_arg2 : IVec S8x2048x32 32) (main_arg3 : FVec F S64x3 .f32) (main_arg4 : FVec F S64 .f32) (main_arg5 : FVec F S128x64 .f32) (main_arg6 : FVec F S128 .f32) (main_arg7 : FVec F S256x128 .f32) (main_arg8 : FVec F S256 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S8x16384x3 : Shape := ⟨3, ![8, 16384, 3]⟩
abbrev S8x2048x3 : Shape := ⟨3, ![8, 2048, 3]⟩
abbrev S8x2048x32 : Shape := ⟨3, ![8, 2048, 32]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S8x1x16384x3 : Shape := ⟨4, ![8, 1, 16384, 3]⟩
abbrev S8x2048x32x1 : Shape := ⟨4, ![8, 2048, 32, 1]⟩
abbrev S_ : Shape := ⟨0, ![]⟩
abbrev S1 : Shape := ⟨1, ![1]⟩
abbrev S1x1x1x1 : Shape := ⟨4, ![1, 1, 1, 1]⟩
abbrev S8x2048x32x3 : Shape := ⟨4, ![8, 2048, 32, 3]⟩
abbrev S8x2048x1x3 : Shape := ⟨4, ![8, 2048, 1, 3]⟩
abbrev S8x65536x3 : Shape := ⟨3, ![8, 65536, 3]⟩
abbrev S3x64 : Shape := ⟨2, ![3, 64]⟩
abbrev S64x128 : Shape := ⟨2, ![64, 128]⟩
abbrev S128x256 : Shape := ⟨2, ![128, 256]⟩
abbrev S1x64 : Shape := ⟨2, ![1, 64]⟩
abbrev S1x128 : Shape := ⟨2, ![1, 128]⟩
abbrev S1x256 : Shape := ⟨2, ![1, 256]⟩
abbrev S8x2048x256 : Shape := ⟨3, ![8, 2048, 256]⟩
abbrev S1x16384x3 : Shape := ⟨3, ![1, 16384, 3]⟩
abbrev S1x512x256 : Shape := ⟨3, ![1, 512, 256]⟩
abbrev S1x1024x3 : Shape := ⟨3, ![1, 1024, 3]⟩
abbrev S1024x3 : Shape := ⟨2, ![1024, 3]⟩
abbrev S1024x64 : Shape := ⟨2, ![1024, 64]⟩
abbrev S1024x128 : Shape := ⟨2, ![1024, 128]⟩
abbrev S1024x256 : Shape := ⟨2, ![1024, 256]⟩
abbrev S32x32x256 : Shape := ⟨3, ![32, 32, 256]⟩
abbrev S32x256 : Shape := ⟨2, ![32, 256]⟩
abbrev S1x32x256 : Shape := ⟨3, ![1, 32, 256]⟩

abbrev nBuf : Space → Nat
  | .hbm => 46
  | .vmem => 10
  | .smem => 0
  | _ => 0

abbrev bufTy : (tb : Table) → Fin (tcTables nBuf tb) → BufTy
  | .hbm, ⟨0, _⟩ => ⟨S8x16384x3, .f32⟩
  | .hbm, ⟨1, _⟩ => ⟨S8x2048x3, .f32⟩
  | .hbm, ⟨2, _⟩ => ⟨S8x2048x32, .i32⟩
  | .hbm, ⟨3, _⟩ => ⟨S64x3, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S8x1x16384x3, .f32⟩
  | .hbm, ⟨10, _⟩ => ⟨S8x2048x32x1, .i32⟩
  | .hbm, ⟨11, _⟩ => ⟨S_, .i32⟩
  | .hbm, ⟨12, _⟩ => ⟨S8x2048x32x1, .i32⟩
  | .hbm, ⟨13, _⟩ => ⟨S8x2048x32x1, .i1⟩
  | .hbm, ⟨14, _⟩ => ⟨S_, .i32⟩
  | .hbm, ⟨15, _⟩ => ⟨S8x2048x32x1, .i32⟩
  | .hbm, ⟨16, _⟩ => ⟨S8x2048x32x1, .i32⟩
  | .hbm, ⟨17, _⟩ => ⟨S8x2048x32x1, .i32⟩
  | .hbm, ⟨18, _⟩ => ⟨S8x16384x3, .f32⟩
  | .hbm, ⟨19, _⟩ => ⟨S1, .i32⟩
  | .hbm, ⟨20, _⟩ => ⟨S_, .i32⟩
  | .hbm, ⟨21, _⟩ => ⟨S8x2048x32x1, .i32⟩
  | .hbm, ⟨22, _⟩ => ⟨S8x2048x32x1, .i1⟩
  | .hbm, ⟨23, _⟩ => ⟨S1x1x1x1, .i32⟩
  | .hbm, ⟨24, _⟩ => ⟨S8x2048x32x1, .i32⟩
  | .hbm, ⟨25, _⟩ => ⟨S8x2048x32x1, .i1⟩
  | .hbm, ⟨26, _⟩ => ⟨S8x2048x32x1, .i1⟩
  | .hbm, ⟨27, _⟩ => ⟨S_, .i1⟩
  | .hbm, ⟨28, _⟩ => ⟨S8x2048x32, .i1⟩
  | .hbm, ⟨29, _⟩ => ⟨S8x2048x32x3, .f32⟩
  | .hbm, ⟨30, _⟩ => ⟨S8x2048x32x3, .i1⟩
  | .hbm, ⟨31, _⟩ => ⟨S_, .f32⟩
  | .hbm, ⟨32, _⟩ => ⟨S8x2048x32x3, .f32⟩
  | .hbm, ⟨33, _⟩ => ⟨S8x2048x32x3, .f32⟩
  | .hbm, ⟨34, _⟩ => ⟨S8x2048x1x3, .f32⟩
  | .hbm, ⟨35, _⟩ => ⟨S8x2048x32x3, .f32⟩
  | .hbm, ⟨36, _⟩ => ⟨S8x2048x32x3, .f32⟩
  | .hbm, ⟨37, _⟩ => ⟨S8x65536x3, .f32⟩
  | .hbm, ⟨38, _⟩ => ⟨S8x65536x3, .bf16⟩
  | .hbm, ⟨39, _⟩ => ⟨S3x64, .f32⟩
  | .hbm, ⟨40, _⟩ => ⟨S64x128, .f32⟩
  | .hbm, ⟨41, _⟩ => ⟨S128x256, .f32⟩
  | .hbm, ⟨42, _⟩ => ⟨S1x64, .f32⟩
  | .hbm, ⟨43, _⟩ => ⟨S1x128, .f32⟩
  | .hbm, ⟨44, _⟩ => ⟨S1x256, .f32⟩
  | .hbm, ⟨45, _⟩ => ⟨S8x2048x256, .f32⟩
  | .local _ .vmem, ⟨0, _⟩ => ⟨S1x16384x3, .bf16⟩
  | .local _ .vmem, ⟨1, _⟩ => ⟨S1x16384x3, .bf16⟩
  | .local _ .vmem, ⟨2, _⟩ => ⟨S3x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c1024_i32 : BitVec 32 := 1024#32
  let v15 : BitVec 32 := Scalar.muli c0_i32 c1024_i32
  v15
def k0_off1 (c0_i32 : BitVec 32) : Fin 3 → Nat :=
  let c0_11 : Index := 0#32
  let c1024_i32 : BitVec 32 := 1024#32
  let v15 : BitVec 32 := Scalar.muli c0_i32 c1024_i32
  let v16 : BitVec 32 := v15
  let v17 : Index := Scalar.indexCast v16
  let c0_12 : Index := 0#32
  ![0, v17.toNat, 0]
def k0_mult2 : BitVec 32 :=
  let c0_i32 : BitVec 32 := 0#32
  let c32_i32 : BitVec 32 := 32#32
  let v36 : BitVec 32 := Scalar.muli c0_i32 c32_i32
  v36
def k0_off2 (c0_i32 : BitVec 32) : Fin 3 → Nat :=
  let c0_18 : Index := 0#32
  let c32_i32 : BitVec 32 := 32#32
  let v36 : BitVec 32 := Scalar.muli c0_i32 c32_i32
  let v37 : BitVec 32 := v36
  let v39 : Index := Scalar.indexCast v37
  let c0_19 : Index := 0#32
  ![0, v39.toNat, 0]
def k0_mult3 : BitVec 32 :=
  let c1_i32 : BitVec 32 := 1#32
  let c1024_i32_20 : BitVec 32 := 1024#32
  let v43 : BitVec 32 := Scalar.muli c1_i32 c1024_i32_20
  v43
def k0_mult4 : BitVec 32 :=
  let c1_i32 : BitVec 32 := 1#32
  let c32_i32_28 : BitVec 32 := 32#32
  let v64 : BitVec 32 := Scalar.muli c1_i32 c32_i32_28
  v64
def k0_mult5 : BitVec 32 :=
  let c2_i32 : BitVec 32 := 2#32
  let c1024_i32_32 : BitVec 32 := 1024#32
  let v71 : BitVec 32 := Scalar.muli c2_i32 c1024_i32_32
  v71
def k0_mult6 : BitVec 32 :=
  let c2_i32 : BitVec 32 := 2#32
  let c32_i32_40 : BitVec 32 := 32#32
  let v92 : BitVec 32 := Scalar.muli c2_i32 c32_i32_40
  v92
def k0_mult7 : BitVec 32 :=
  let c3_i32 : BitVec 32 := 3#32
  let c1024_i32_44 : BitVec 32 := 1024#32
  let v99 : BitVec 32 := Scalar.muli c3_i32 c1024_i32_44
  v99
def k0_mult8 : BitVec 32 :=
  let c3_i32 : BitVec 32 := 3#32
  let c32_i32_52 : BitVec 32 := 32#32
  let v120 : BitVec 32 := Scalar.muli c3_i32 c32_i32_52
  v120
def k0_mult9 : BitVec 32 :=
  let c4_i32 : BitVec 32 := 4#32
  let c1024_i32_56 : BitVec 32 := 1024#32
  let v127 : BitVec 32 := Scalar.muli c4_i32 c1024_i32_56
  v127
def k0_mult10 : BitVec 32 :=
  let c4_i32 : BitVec 32 := 4#32
  let c32_i32_64 : BitVec 32 := 32#32
  let v148 : BitVec 32 := Scalar.muli c4_i32 c32_i32_64
  v148
def k0_mult11 : BitVec 32 :=
  let c5_i32 : BitVec 32 := 5#32
  let c1024_i32_68 : BitVec 32 := 1024#32
  let v155 : BitVec 32 := Scalar.muli c5_i32 c1024_i32_68
  v155
def k0_mult12 : BitVec 32 :=
  let c5_i32 : BitVec 32 := 5#32
  let c32_i32_76 : BitVec 32 := 32#32
  let v176 : BitVec 32 := Scalar.muli c5_i32 c32_i32_76
  v176
def k0_mult13 : BitVec 32 :=
  let c6_i32 : BitVec 32 := 6#32
  let c1024_i32_80 : BitVec 32 := 1024#32
  let v183 : BitVec 32 := Scalar.muli c6_i32 c1024_i32_80
  v183
def k0_mult14 : BitVec 32 :=
  let c6_i32 : BitVec 32 := 6#32
  let c32_i32_88 : BitVec 32 := 32#32
  let v204 : BitVec 32 := Scalar.muli c6_i32 c32_i32_88
  v204
def k0_mult15 : BitVec 32 :=
  let c7_i32 : BitVec 32 := 7#32
  let c1024_i32_92 : BitVec 32 := 1024#32
  let v211 : BitVec 32 := Scalar.muli c7_i32 c1024_i32_92
  v211
def k0_mult16 : BitVec 32 :=
  let c7_i32 : BitVec 32 := 7#32
  let c32_i32_100 : BitVec 32 := 32#32
  let v232 : BitVec 32 := Scalar.muli c7_i32 c32_i32_100
  v232
def k0_mult17 : BitVec 32 :=
  let c8_i32 : BitVec 32 := 8#32
  let c1024_i32_104 : BitVec 32 := 1024#32
  let v239 : BitVec 32 := Scalar.muli c8_i32 c1024_i32_104
  v239
def k0_mult18 : BitVec 32 :=
  let c8_i32 : BitVec 32 := 8#32
  let c32_i32_112 : BitVec 32 := 32#32
  let v260 : BitVec 32 := Scalar.muli c8_i32 c32_i32_112
  v260
def k0_mult19 : BitVec 32 :=
  let c9_i32 : BitVec 32 := 9#32
  let c1024_i32_116 : BitVec 32 := 1024#32
  let v267 : BitVec 32 := Scalar.muli c9_i32 c1024_i32_116
  v267
def k0_mult20 : BitVec 32 :=
  let c9_i32 : BitVec 32 := 9#32
  let c32_i32_124 : BitVec 32 := 32#32
  let v288 : BitVec 32 := Scalar.muli c9_i32 c32_i32_124
  v288
def k0_mult21 : BitVec 32 :=
  let c10_i32 : BitVec 32 := 10#32
  let c1024_i32_128 : BitVec 32 := 1024#32
  let v295 : BitVec 32 := Scalar.muli c10_i32 c1024_i32_128
  v295
def k0_mult22 : BitVec 32 :=
  let c10_i32 : BitVec 32 := 10#32
  let c32_i32_136 : BitVec 32 := 32#32
  let v316 : BitVec 32 := Scalar.muli c10_i32 c32_i32_136
  v316
def k0_mult23 : BitVec 32 :=
  let c11_i32 : BitVec 32 := 11#32
  let c1024_i32_140 : BitVec 32 := 1024#32
  let v323 : BitVec 32 := Scalar.muli c11_i32 c1024_i32_140
  v323
def k0_mult24 : BitVec 32 :=
  let c11_i32 : BitVec 32 := 11#32
  let c32_i32_148 : BitVec 32 := 32#32
  let v344 : BitVec 32 := Scalar.muli c11_i32 c32_i32_148
  v344
def k0_mult25 : BitVec 32 :=
  let c12_i32 : BitVec 32 := 12#32
  let c1024_i32_152 : BitVec 32 := 1024#32
  let v351 : BitVec 32 := Scalar.muli c12_i32 c1024_i32_152
  v351
def k0_mult26 : BitVec 32 :=
  let c12_i32 : BitVec 32 := 12#32
  let c32_i32_160 : BitVec 32 := 32#32
  let v372 : BitVec 32 := Scalar.muli c12_i32 c32_i32_160
  v372
def k0_mult27 : BitVec 32 :=
  let c13_i32 : BitVec 32 := 13#32
  let c1024_i32_164 : BitVec 32 := 1024#32
  let v379 : BitVec 32 := Scalar.muli c13_i32 c1024_i32_164
  v379
def k0_mult28 : BitVec 32 :=
  let c13_i32 : BitVec 32 := 13#32
  let c32_i32_172 : BitVec 32 := 32#32
  let v400 : BitVec 32 := Scalar.muli c13_i32 c32_i32_172
  v400
def k0_mult29 : BitVec 32 :=
  let c14_i32 : BitVec 32 := 14#32
  let c1024_i32_176 : BitVec 32 := 1024#32
  let v407 : BitVec 32 := Scalar.muli c14_i32 c1024_i32_176
  v407
def k0_mult30 : BitVec 32 :=
  let c14_i32 : BitVec 32 := 14#32
  let c32_i32_184 : BitVec 32 := 32#32
  let v428 : BitVec 32 := Scalar.muli c14_i32 c32_i32_184
  v428
def k0_mult31 : BitVec 32 :=
  let c15_i32 : BitVec 32 := 15#32
  let c1024_i32_188 : BitVec 32 := 1024#32
  let v435 : BitVec 32 := Scalar.muli c15_i32 c1024_i32_188
  v435
def k0_mult32 : BitVec 32 :=
  let c15_i32 : BitVec 32 := 15#32
  let c32_i32_196 : BitVec 32 := 32#32
  let v456 : BitVec 32 := Scalar.muli c15_i32 c32_i32_196
  v456
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S8x16384x3_S8x1x16384x3_0_2_3 : S8x16384x3.BroadcastsInDim S8x1x16384x3 (![0, 2, 3] : Fin 3 → Fin S8x1x16384x3.rank)
  bcast_S8x2048x32_S8x2048x32x1_0_1_2 : S8x2048x32.BroadcastsInDim S8x2048x32x1 (![0, 1, 2] : Fin 3 → Fin S8x2048x32x1.rank)
  bcast_S_S8x2048x32x1 : S_.BroadcastsInDim S8x2048x32x1 (![] : Fin 0 → Fin S8x2048x32x1.rank)
  shapeCasts_S8x1x16384x3_S8x16384x3 : S8x1x16384x3.ShapeCasts S8x16384x3
  bcast_S1_S1x1x1x1_3 : S1.BroadcastsInDim S1x1x1x1 (![3] : Fin 1 → Fin S1x1x1x1.rank)
  bcast_S1x1x1x1_S8x2048x32x1_0_1_2_3 : S1x1x1x1.BroadcastsInDim S8x2048x32x1 (![0, 1, 2, 3] : Fin 4 → Fin S8x2048x32x1.rank)
  reducesTo_S8x2048x32x1_S8x2048x32_d3 : S8x2048x32x1.ReducesTo [3] S8x2048x32
  h_S_ : 0 < S_.numel
  bcast_S8x2048x32_S8x2048x32x3_0_1_2 : S8x2048x32.BroadcastsInDim S8x2048x32x3 (![0, 1, 2] : Fin 3 → Fin S8x2048x32x3.rank)
  bcast_S_S8x2048x32x3 : S_.BroadcastsInDim S8x2048x32x3 (![] : Fin 0 → Fin S8x2048x32x3.rank)
  bcast_S8x2048x3_S8x2048x1x3_0_1_3 : S8x2048x3.BroadcastsInDim S8x2048x1x3 (![0, 1, 3] : Fin 3 → Fin S8x2048x1x3.rank)
  bcast_S8x2048x1x3_S8x2048x32x3_0_1_2_3 : S8x2048x1x3.BroadcastsInDim S8x2048x32x3 (![0, 1, 2, 3] : Fin 4 → Fin S8x2048x32x3.rank)
  shapeCasts_S8x2048x32x3_S8x65536x3 : S8x2048x32x3.ShapeCasts S8x65536x3
  bitsLt_bf16_f32 : FTy.bits .bf16 < FTy.bits .f32
  transposes_S64x3_S3x64_1_0 : S64x3.Transposes [1, 0] S3x64
  transposes_S128x64_S64x128_1_0 : S128x64.Transposes [1, 0] S64x128
  transposes_S256x128_S128x256_1_0 : S256x128.Transposes [1, 0] S128x256
  shapeCasts_S64_S1x64 : S64.ShapeCasts S1x64
  shapeCasts_S128_S1x128 : S128.ShapeCasts S1x128
  shapeCasts_S256_S1x256 : S256.ShapeCasts S1x256
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x1024x3 : 0 < S1x1024x3.numel
  shapeCasts_S1x1024x3_S1024x3 : S1x1024x3.ShapeCasts S1024x3
  broadcasts_S1x64_S1024x64 : S1x64.Broadcasts S1024x64
  broadcasts_S1x128_S1024x128 : S1x128.Broadcasts S1024x128
  broadcasts_S1x256_S1024x256 : S1x256.Broadcasts S1024x256
  shapeCasts_S1024x256_S32x32x256 : S1024x256.ShapeCasts S32x32x256
  reduces_S32x32x256_S32x256 : S32x32x256.Reduces [1] S32x256
  h_S1x32x256 : 0 < S1x32x256.numel
  shapeCasts_S1x32x256_S32x256 : S1x32x256.ShapeCasts S32x256
  shapeCasts_S32x256_S1x32x256 : S32x256.ShapeCasts S1x32x256
  gather_S8x16384x3_S8x2048x32x1_S8x2048x32x3_3_1_0_0_1_3_113_wf : GatherDims.WF S8x16384x3 S8x2048x32x1 S8x2048x32x3 [3] [1] [0] [1] [0] 3 ![1, 1, 3]
  dot_S1024x3_S3x64_S1024x64_1_0_0_1_n_n_wf : DotDims.WF S1024x3 S3x64 S1024x64 [1] [0] [0] [1] [] []
  dot_S1024x64_S64x128_S1024x128_1_0_0_1_n_n_wf : DotDims.WF S1024x64 S64x128 S1024x128 [1] [0] [0] [1] [] []
  dot_S1024x128_S128x256_S1024x256_1_0_0_1_n_n_wf : DotDims.WF S1024x128 S128x256 S1024x256 [1] [0] [0] [1] [] []
  hrank0 : 0 < grid0.rank
  k0_mult1_dvd : 1024 ∣ k0_mult1.toNat
  k0_off1_inb : ∀ (r : Fin 16), ∀ a, (k0_off1 (BitVec.ofNat 32 r.val)) a + S1x1024x3.size a ≤ S1x16384x3.size a
  k0_mult2_dvd : 32 ∣ k0_mult2.toNat
  k0_off2_inb : ∀ (r : Fin 16), ∀ a, (k0_off2 (BitVec.ofNat 32 r.val)) a + S1x32x256.size a ≤ S1x512x256.size a
  k0_mult3_dvd : 1024 ∣ k0_mult3.toNat
  k0_mult4_dvd : 32 ∣ k0_mult4.toNat
  k0_mult5_dvd : 1024 ∣ k0_mult5.toNat
  k0_mult6_dvd : 32 ∣ k0_mult6.toNat
  k0_mult7_dvd : 1024 ∣ k0_mult7.toNat
  k0_mult8_dvd : 32 ∣ k0_mult8.toNat
  k0_mult9_dvd : 1024 ∣ k0_mult9.toNat
  k0_mult10_dvd : 32 ∣ k0_mult10.toNat
  k0_mult11_dvd : 1024 ∣ k0_mult11.toNat
  k0_mult12_dvd : 32 ∣ k0_mult12.toNat
  k0_mult13_dvd : 1024 ∣ k0_mult13.toNat
  k0_mult14_dvd : 32 ∣ k0_mult14.toNat
  k0_mult15_dvd : 1024 ∣ k0_mult15.toNat
  k0_mult16_dvd : 32 ∣ k0_mult16.toNat
  k0_mult17_dvd : 1024 ∣ k0_mult17.toNat
  k0_mult18_dvd : 32 ∣ k0_mult18.toNat
  k0_mult19_dvd : 1024 ∣ k0_mult19.toNat
  k0_mult20_dvd : 32 ∣ k0_mult20.toNat
  k0_mult21_dvd : 1024 ∣ k0_mult21.toNat
  k0_mult22_dvd : 32 ∣ k0_mult22.toNat
  k0_mult23_dvd : 1024 ∣ k0_mult23.toNat
  k0_mult24_dvd : 32 ∣ k0_mult24.toNat
  k0_mult25_dvd : 1024 ∣ k0_mult25.toNat
  k0_mult26_dvd : 32 ∣ k0_mult26.toNat
  k0_mult27_dvd : 1024 ∣ k0_mult27.toNat
  k0_mult28_dvd : 32 ∣ k0_mult28.toNat
  k0_mult29_dvd : 1024 ∣ k0_mult29.toNat
  k0_mult30_dvd : 32 ∣ k0_mult30.toNat
  k0_mult31_dvd : 1024 ∣ k0_mult31.toNat
  k0_mult32_dvd : 32 ∣ k0_mult32.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x3.size a ≤ S8x65536x3.size a
  hwx0_0 : ∀ i : grid0.Coords, EltTy.bits .bf16 = 32 ∨ (Rect.block (s := S8x65536x3) S1x16384x3.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S8x2048x256.size a
  hwx0_7 : ∀ i : grid0.Coords, EltTy.bits .f32 = 32 ∨ (Rect.block (s := S8x2048x256) S1x512x256.size (cc0_transform_7 i) (hinb0_7 i)).WholeWords (EltTy.packing .f32)

variable [Facts₀]

def gather_S8x16384x3_S8x2048x32x1_S8x2048x32x3_3_1_0_0_1_3_113 : GatherDims S8x16384x3 S8x2048x32x1 S8x2048x32x3 where
  offsetDims := [3]
  collapsedSliceDims := [1]
  operandBatchingDims := [0]
  startIndicesBatchingDims := [0]
  startIndexMap := [1]
  indexVectorDim := 3
  sliceSizes := ![1, 1, 3]
  wf := gather_S8x16384x3_S8x2048x32x1_S8x2048x32x3_3_1_0_0_1_3_113_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v7) S1x16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x16384x3 : Shape := ⟨3, ![8, 16384, 3]⟩
abbrev S8x2048x3 : Shape := ⟨3, ![8, 2048, 3]⟩
abbrev S8x2048x32 : Shape := ⟨3, ![8, 2048, 32]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S8x1x16384x3 : Shape := ⟨4, ![8, 1, 16384, 3]⟩
abbrev S8x2048x32x1 : Shape := ⟨4, ![8, 2048, 32, 1]⟩
abbrev S_ : Shape := ⟨0, ![]⟩
abbrev S1 : Shape := ⟨1, ![1]⟩
abbrev S1x1x1x1 : Shape := ⟨4, ![1, 1, 1, 1]⟩
abbrev S8x2048x32x3 : Shape := ⟨4, ![8, 2048, 32, 3]⟩
abbrev S8x2048x1x3 : Shape := ⟨4, ![8, 2048, 1, 3]⟩
abbrev S8x2048x32x64 : Shape := ⟨4, ![8, 2048, 32, 64]⟩
abbrev S1x1x1x64 : Shape := ⟨4, ![1, 1, 1, 64]⟩
abbrev S8x2048x32x128 : Shape := ⟨4, ![8, 2048, 32, 128]⟩
abbrev S1x1x1x128 : Shape := ⟨4, ![1, 1, 1, 128]⟩
abbrev S8x2048x32x256 : Shape := ⟨4, ![8, 2048, 32, 256]⟩
abbrev S1x1x1x256 : Shape := ⟨4, ![1, 1, 1, 256]⟩
abbrev S8x2048x256 : Shape := ⟨3, ![8, 2048, 256]⟩

abbrev nBuf : Space → Nat
  | .hbm => 57
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x2048x3, .f32⟩
  | .hbm, ⟨2, _⟩ => ⟨S8x2048x32, .i32⟩
  | .hbm, ⟨3, _⟩ => ⟨S64x3, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S8x1x16384x3, .f32⟩
  | .hbm, ⟨10, _⟩ => ⟨S8x2048x32x1, .i32⟩
  | .hbm, ⟨11, _⟩ => ⟨S_, .i32⟩
  | .hbm, ⟨12, _⟩ => ⟨S8x2048x32x1, .i32⟩
  | .hbm, ⟨13, _⟩ => ⟨S8x2048x32x1, .i1⟩
  | .hbm, ⟨14, _⟩ => ⟨S_, .i32⟩
  | .hbm, ⟨15, _⟩ => ⟨S8x2048x32x1, .i32⟩
  | .hbm, ⟨16, _⟩ => ⟨S8x2048x32x1, .i32⟩
  | .hbm, ⟨17, _⟩ => ⟨S8x2048x32x1, .i32⟩
  | .hbm, ⟨18, _⟩ => ⟨S8x16384x3, .f32⟩
  | .hbm, ⟨19, _⟩ => ⟨S1, .i32⟩
  | .hbm, ⟨20, _⟩ => ⟨S_, .i32⟩
  | .hbm, ⟨21, _⟩ => ⟨S8x2048x32x1, .i32⟩
  | .hbm, ⟨22, _⟩ => ⟨S8x2048x32x1, .i1⟩
  | .hbm, ⟨23, _⟩ => ⟨S1x1x1x1, .i32⟩
  | .hbm, ⟨24, _⟩ => ⟨S8x2048x32x1, .i32⟩
  | .hbm, ⟨25, _⟩ => ⟨S8x2048x32x1, .i1⟩
  | .hbm, ⟨26, _⟩ => ⟨S8x2048x32x1, .i1⟩
  | .hbm, ⟨27, _⟩ => ⟨S_, .i1⟩
  | .hbm, ⟨28, _⟩ => ⟨S8x2048x32, .i1⟩
  | .hbm, ⟨29, _⟩ => ⟨S8x2048x32x3, .f32⟩
  | .hbm, ⟨30, _⟩ => ⟨S8x2048x32x3, .i1⟩
  | .hbm, ⟨31, _⟩ => ⟨S_, .f32⟩
  | .hbm, ⟨32, _⟩ => ⟨S8x2048x32x3, .f32⟩
  | .hbm, ⟨33, _⟩ => ⟨S8x2048x32x3, .f32⟩
  | .hbm, ⟨34, _⟩ => ⟨S8x2048x1x3, .f32⟩
  | .hbm, ⟨35, _⟩ => ⟨S8x2048x32x3, .f32⟩
  | .hbm, ⟨36, _⟩ => ⟨S8x2048x32x3, .f32⟩
  | .hbm, ⟨37, _⟩ => ⟨S8x2048x32x64, .f32⟩
  | .hbm, ⟨38, _⟩ => ⟨S1x1x1x64, .f32⟩
  | .hbm, ⟨39, _⟩ => ⟨S8x2048x32x64, .f32⟩
  | .hbm, ⟨40, _⟩ => ⟨S8x2048x32x64, .f32⟩
  | .hbm, ⟨41, _⟩ => ⟨S_, .f32⟩
  | .hbm, ⟨42, _⟩ => ⟨S8x2048x32x64, .f32⟩
  | .hbm, ⟨43, _⟩ => ⟨S8x2048x32x64, .f32⟩
  | .hbm, ⟨44, _⟩ => ⟨S8x2048x32x128, .f32⟩
  | .hbm, ⟨45, _⟩ => ⟨S1x1x1x128, .f32⟩
  | .hbm, ⟨46, _⟩ => ⟨S8x2048x32x128, .f32⟩
  | .hbm, ⟨47, _⟩ => ⟨S8x2048x32x128, .f32⟩
  | .hbm, ⟨48, _⟩ => ⟨S_, .f32⟩
  | .hbm, ⟨49, _⟩ => ⟨S8x2048x32x128, .f32⟩
  | .hbm, ⟨50, _⟩ => ⟨S8x2048x32x128, .f32⟩
  | .hbm, ⟨51, _⟩ => ⟨S8x2048x32x256, .f32⟩
  | .hbm, ⟨52, _⟩ => ⟨S1x1x1x256, .f32⟩
  | .hbm, ⟨53, _⟩ => ⟨S8x2048x32x256, .f32⟩
  | .hbm, ⟨54, _⟩ => ⟨S8x2048x32x256, .f32⟩
  | .hbm, ⟨55, _⟩ => ⟨S_, .f32⟩
  | .hbm, ⟨56, _⟩ => ⟨S8x2048x256, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_cst : Ref sig .tc := ⟨.hbm, 41, rfl⟩
abbrev main_call1_v0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call2_cst : Ref sig .tc := ⟨.hbm, 48, rfl⟩
abbrev main_call2_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst : Ref sig .tc := ⟨.hbm, 55, rfl⟩
abbrev main_v20 : Ref sig .tc := ⟨.hbm, 56, rfl⟩

abbrev nD : Nat := 1
abbrev τ : Topo := Topo.v7x

variable {F : FTy → Type} [FloatOps F]

class Facts₀ : Prop where
  bcast_S8x16384x3_S8x1x16384x3_0_2_3 : S8x16384x3.BroadcastsInDim S8x1x16384x3 (![0, 2, 3] : Fin 3 → Fin S8x1x16384x3.rank)
  bcast_S8x2048x32_S8x2048x32x1_0_1_2 : S8x2048x32.BroadcastsInDim S8x2048x32x1 (![0, 1, 2] : Fin 3 → Fin S8x2048x32x1.rank)
  bcast_S_S8x2048x32x1 : S_.BroadcastsInDim S8x2048x32x1 (![] : Fin 0 → Fin S8x2048x32x1.rank)
  shapeCasts_S8x1x16384x3_S8x16384x3 : S8x1x16384x3.ShapeCasts S8x16384x3
  bcast_S1_S1x1x1x1_3 : S1.BroadcastsInDim S1x1x1x1 (![3] : Fin 1 → Fin S1x1x1x1.rank)
  bcast_S1x1x1x1_S8x2048x32x1_0_1_2_3 : S1x1x1x1.BroadcastsInDim S8x2048x32x1 (![0, 1, 2, 3] : Fin 4 → Fin S8x2048x32x1.rank)
  reducesTo_S8x2048x32x1_S8x2048x32_d3 : S8x2048x32x1.ReducesTo [3] S8x2048x32
  h_S_ : 0 < S_.numel
  bcast_S8x2048x32_S8x2048x32x3_0_1_2 : S8x2048x32.BroadcastsInDim S8x2048x32x3 (![0, 1, 2] : Fin 3 → Fin S8x2048x32x3.rank)
  bcast_S_S8x2048x32x3 : S_.BroadcastsInDim S8x2048x32x3 (![] : Fin 0 → Fin S8x2048x32x3.rank)
  bcast_S8x2048x3_S8x2048x1x3_0_1_3 : S8x2048x3.BroadcastsInDim S8x2048x1x3 (![0, 1, 3] : Fin 3 → Fin S8x2048x1x3.rank)
  bcast_S8x2048x1x3_S8x2048x32x3_0_1_2_3 : S8x2048x1x3.BroadcastsInDim S8x2048x32x3 (![0, 1, 2, 3] : Fin 4 → Fin S8x2048x32x3.rank)
  bcast_S64_S1x1x1x64_3 : S64.BroadcastsInDim S1x1x1x64 (![3] : Fin 1 → Fin S1x1x1x64.rank)
  bcast_S1x1x1x64_S8x2048x32x64_0_1_2_3 : S1x1x1x64.BroadcastsInDim S8x2048x32x64 (![0, 1, 2, 3] : Fin 4 → Fin S8x2048x32x64.rank)
  bcast_S_S8x2048x32x64 : S_.BroadcastsInDim S8x2048x32x64 (![] : Fin 0 → Fin S8x2048x32x64.rank)
  bcast_S128_S1x1x1x128_3 : S128.BroadcastsInDim S1x1x1x128 (![3] : Fin 1 → Fin S1x1x1x128.rank)
  bcast_S1x1x1x128_S8x2048x32x128_0_1_2_3 : S1x1x1x128.BroadcastsInDim S8x2048x32x128 (![0, 1, 2, 3] : Fin 4 → Fin S8x2048x32x128.rank)
  bcast_S_S8x2048x32x128 : S_.BroadcastsInDim S8x2048x32x128 (![] : Fin 0 → Fin S8x2048x32x128.rank)
  bcast_S256_S1x1x1x256_3 : S256.BroadcastsInDim S1x1x1x256 (![3] : Fin 1 → Fin S1x1x1x256.rank)
  bcast_S1x1x1x256_S8x2048x32x256_0_1_2_3 : S1x1x1x256.BroadcastsInDim S8x2048x32x256 (![0, 1, 2, 3] : Fin 4 → Fin S8x2048x32x256.rank)
  reducesTo_S8x2048x32x256_S8x2048x256_d2 : S8x2048x32x256.ReducesTo [2] S8x2048x256
  gather_S8x16384x3_S8x2048x32x1_S8x2048x32x3_3_1_0_0_1_3_113_wf : GatherDims.WF S8x16384x3 S8x2048x32x1 S8x2048x32x3 [3] [1] [0] [1] [0] 3 ![1, 1, 3]
  dot_S8x2048x32x3_S64x3_S8x2048x32x64_3_1_012_0_n_n_wf : DotDims.WF S8x2048x32x3 S64x3 S8x2048x32x64 [3] [1] [0, 1, 2] [0] [] []
  dot_S8x2048x32x64_S128x64_S8x2048x32x128_3_1_012_0_n_n_wf : DotDims.WF S8x2048x32x64 S128x64 S8x2048x32x128 [3] [1] [0, 1, 2] [0] [] []
  dot_S8x2048x32x128_S256x128_S8x2048x32x256_3_1_012_0_n_n_wf : DotDims.WF S8x2048x32x128 S256x128 S8x2048x32x256 [3] [1] [0, 1, 2] [0] [] []

variable [Facts₀]

def gather_S8x16384x3_S8x2048x32x1_S8x2048x32x3_3_1_0_0_1_3_113 : GatherDims S8x16384x3 S8x2048x32x1 S8x2048x32x3 where
  offsetDims := [3]
  collapsedSliceDims := [1]
  operandBatchingDims := [0]
  startIndicesBatchingDims := [0]
  startIndexMap := [1]
  indexVectorDim := 3
  sliceSizes := ![1, 1, 3]
  wf := gather_S8x16384x3_S8x2048x32x1_S8x2048x32x3_3_1_0_0_1_3_113_wf
def dot_S8x2048x32x3_S64x3_S8x2048x32x64_3_1_012_0_n_n : DotDims S8x2048x32x3 S64x3 S8x2048x32x64 where
  lhsContracting := [3]
  rhsContracting := [1]
  lhsNonContracting := [0, 1, 2]
  rhsNonContracting := [0]
  lhsBatch := []
  rhsBatch := []
  wf := dot_S8x2048x32x3_S64x3_S8x2048x32x64_3_1_012_0_n_n_wf
def dot_S8x2048x32x64_S128x64_S8x2048x32x128_3_1_012_0_n_n : DotDims S8x2048x32x64 S128x64 S8x2048x32x128 where
  lhsContracting := [3]
  rhsContracting := [1]
  lhsNonContracting := [0, 1, 2]
  rhsNonContracting := [0]
  lhsBatch := []
  rhsBatch := []
  wf := dot_S8x2048x32x64_S128x64_S8x2048x32x128_3_1_012_0_n_n_wf
def dot_S8x2048x32x128_S256x128_S8x2048x32x256_3_1_012_0_n_n : DotDims S8x2048x32x128 S256x128 S8x2048x32x256 where
  lhsContracting := [3]
  rhsContracting := [1]
  lhsNonContracting := [0, 1, 2]
  rhsNonContracting := [0]
  lhsBatch := []
  rhsBatch := []
  wf := dot_S8x2048x32x128_S256x128_S8x2048x32x256_3_1_012_0_n_n_wf

class Facts : Prop extends Facts₀ where

variable [Facts]
-- ==== Proof.RowNet.lean ====
/-
  The pointwise network applied to one neighbour's offset vector, and its maximum over a centre's neighbours, on
  the extended reals.

  A row `x` (three coordinates) goes through three affine layers, `x ↦ W x + b` with `W` given row by row
  (`W o c` multiplies input coordinate `c` in output coordinate `o`), the first two followed by the rectifier
  `v ↦ max v 0`. A centre's result in channel `e` is the maximum over its neighbours of the network's channel `e`,
  folded from the least element. Both programs compute exactly this; nothing here needs the entries to be finite:
  the sums are the same sums on both sides, term by term.
-/
import Idealize.ShloMosaic.PureOps.Ideal
import Idealize.ShloMosaic.PureOps.Ideal.Laws
import Idealize.ShloMosaic.Lib.ValueIdx

noncomputable section

namespace Cert.RowNet

open Idealize.ShloMosaic

/-- The value both programs write for the float zero (the rectifier's floor); its word is never evaluated. -/
abbrev floorWord : EReal := Ideal.ofBits .f32 0x00000000#32

/-- The value both programs start the maximum from (the word of minus infinity); never evaluated either. -/
abbrev bottomWord : EReal := Ideal.ofBits .f32 0xFF800000#32

/-- One affine layer: output coordinate `o` is `∑ c, x c * W o c + b o`. -/
def affine {k n : Nat} (W : Fin n → Fin k → EReal) (b : Fin n → EReal) (x : Fin k → EReal) : Fin n → EReal :=
  fun o => (∑ c : Fin k, x c * W o c) + b o

/-- The rectifier, coordinate by coordinate. -/
def rect {n : Nat} (v : Fin n → EReal) : Fin n → EReal := fun o => max (v o) floorWord

/-- The three-layer network of one row. -/
def net (W1 : Fin 64 → Fin 3 → EReal) (b1 : Fin 64 → EReal) (W2 : Fin 128 → Fin 64 → EReal) (b2 : Fin 128 → EReal)
    (W3 : Fin 256 → Fin 128 → EReal) (b3 : Fin 256 → EReal) (x : Fin 3 → EReal) : Fin 256 → EReal :=
  affine W3 b3 (rect (affine W2 b2 (rect (affine W1 b1 x))))

/-- A centre's channel `e`: the maximum over its 32 neighbour rows of the network's channel `e`. -/
def pooled (W1 : Fin 64 → Fin 3 → EReal) (b1 : Fin 64 → EReal) (W2 : Fin 128 → Fin 64 → EReal) (b2 : Fin 128 → EReal)
    (W3 : Fin 256 → Fin 128 → EReal) (b3 : Fin 256 → EReal) (rows : Fin 32 → Fin 3 → EReal) (e : Fin 256) : EReal :=
  (Finset.univ : Finset (Fin 32)).fold max bottomWord (fun k => net W1 b1 W2 b2 W3 b3 (rows k) e)

/-- The network and the pooled maximum depend on the rows and weights only through their values. -/
theorem pooled_congr {W1 W1' : Fin 64 → Fin 3 → EReal} {b1 b1' : Fin 64 → EReal} {W2 W2' : Fin 128 → Fin 64 → EReal}
    {b2 b2' : Fin 128 → EReal} {W3 W3' : Fin 256 → Fin 128 → EReal} {b3 b3' : Fin 256 → EReal}
    {rows rows' : Fin 32 → Fin 3 → EReal} (hW1 : ∀ o c, W1 o c = W1' o c) (hb1 : ∀ o, b1 o = b1' o)
    (hW2 : ∀ o c, W2 o c = W2' o c) (hb2 : ∀ o, b2 o = b2' o) (hW3 : ∀ o c, W3 o c = W3' o c) (hb3 : ∀ o, b3 o = b3' o)
    (hr : ∀ k c, rows k c = rows' k c) (e : Fin 256) :
    pooled W1 b1 W2 b2 W3 b3 rows e = pooled W1' b1' W2' b2' W3' b3' rows' e := by
  have e1 : W1 = W1' := funext fun o => funext fun c => hW1 o c
  have e2 : b1 = b1' := funext hb1
  have e3 : W2 = W2' := funext fun o => funext fun c => hW2 o c
  have e4 : b2 = b2' := funext hb2
  have e5 : W3 = W3' := funext fun o => funext fun c => hW3 o c
  have e6 : b3 = b3' := funext hb3
  have e7 : rows = rows' := funext fun k => funext fun c => hr k c
  rw [e1, e2, e3, e4, e5, e6, e7]

end Cert.RowNet

end
-- ==== Proof.ChunkValue.lean ====
/-
  One chunk of the kernel's arithmetic, read entry by entry: the value the kernel body computes for centre `p` and
  channel `e` of a chunk of 1024 rows is the maximum, over the centre's 32 neighbour rows, of the three-layer
  network's channel `e`.

  Row `r` of each of the three products is the affine layer applied to row `r` of its left operand; the rectifier and
  the narrowing conversion act entry by entry (the conversion is the identity on the extended reals); the cast of the
  1024 rows to 32 by 32 is row-major, so row `32 p + k` is neighbour `k` of centre `p`; and the reduction over the
  middle axis is the fold of `max` from the value of the word of minus infinity.
-/
import proofs.«417574_j5583457485374_3_alg».proof.Proof.Gen.KernelIdeal.Skeleton
import proofs.«417574_j5583457485374_3_alg».proof.Proof.RowNet
import Idealize.ShloMosaic.Lib.Pipeline.Value
import Idealize.ShloMosaic.PureOps.Ideal.Laws

noncomputable section

namespace Cert.KernelIdeal.ChunkValue

open Idealize.ShloMosaic Idealize.ShloMosaic.ValueIdx Cert.KernelIdeal Cert.KernelIdeal.Gen

/-! ### The product of layer 1, read at a row and a column -/

theorem lhs1_row (i : S1024x64.Idx) (q : dot_S1024x3_S3x64_S1024x64_1_0_0_1_n_n.contr.Idx) :
    (dot_S1024x3_S3x64_S1024x64_1_0_0_1_n_n.lhsIdx i q 0).val = (i 0).val := by
  unfold DotDims.lhsIdx
  rw [dif_neg (show ¬(0 : Fin S1024x3.rank) ∈ dot_S1024x3_S3x64_S1024x64_1_0_0_1_n_n.lhsBatch by decide),
    dif_pos (show (0 : Fin S1024x3.rank) ∈ dot_S1024x3_S3x64_S1024x64_1_0_0_1_n_n.lhsNonContracting by decide)]
  rfl

theorem lhs1_contr (i : S1024x64.Idx) (q : dot_S1024x3_S3x64_S1024x64_1_0_0_1_n_n.contr.Idx) :
    (dot_S1024x3_S3x64_S1024x64_1_0_0_1_n_n.lhsIdx i q 1).val = (q ⟨0, by decide⟩).val :=
  dot_S1024x3_S3x64_S1024x64_1_0_0_1_n_n.lhsIdx_val_of_single rfl i q

theorem rhs1_contr (i : S1024x64.Idx) (q : dot_S1024x3_S3x64_S1024x64_1_0_0_1_n_n.contr.Idx) :
    (dot_S1024x3_S3x64_S1024x64_1_0_0_1_n_n.rhsIdx i q 0).val = (q ⟨0, by decide⟩).val :=
  dot_S1024x3_S3x64_S1024x64_1_0_0_1_n_n.rhsIdx_val_of_single rfl i q

theorem rhs1_col (i : S1024x64.Idx) (q : dot_S1024x3_S3x64_S1024x64_1_0_0_1_n_n.contr.Idx) :
    (dot_S1024x3_S3x64_S1024x64_1_0_0_1_n_n.rhsIdx i q 1).val = (i 1).val := by
  unfold DotDims.rhsIdx
  rw [dif_neg (show ¬(1 : Fin S3x64.rank) ∈ dot_S1024x3_S3x64_S1024x64_1_0_0_1_n_n.rhsBatch by decide),
    dif_pos (show (1 : Fin S3x64.rank) ∈ dot_S1024x3_S3x64_S1024x64_1_0_0_1_n_n.rhsNonContracting by decide)]
  rfl

/-- Entry `(r, o)` of the product into a zero accumulator is the sum over the contracted coordinate. -/
theorem prod1_apply (h : FVec Ideal S1024x3 .bf16) (W : FVec Ideal S3x64 .bf16) (r : Fin 1024) (o : Fin 64) :
    matmul (F := Ideal) dot_S1024x3_S3x64_S1024x64_1_0_0_1_n_n none h W (constant S1024x64 .f32 0x00000000#32) (ix2 r o)
      = ∑ c : Fin 3, h (ix2 r c) * W (ix2 c o) := by
  show FloatOps.matmul (F := Ideal) dot_S1024x3_S3x64_S1024x64_1_0_0_1_n_n none h W (constant S1024x64 .f32 0x00000000#32) (ix2 r o) = _
  rw [Ideal.matmul_constant_zero_apply, ← Equiv.sum_comp (contrEquiv1 dot_S1024x3_S3x64_S1024x64_1_0_0_1_n_n 3 rfl rfl).symm]
  refine Finset.sum_congr rfl fun c _ => ?_
  have hc := contrEquiv1_symm_val dot_S1024x3_S3x64_S1024x64_1_0_0_1_n_n 3 rfl rfl c
  have el : dot_S1024x3_S3x64_S1024x64_1_0_0_1_n_n.lhsIdx (ix2 r o) ((contrEquiv1 dot_S1024x3_S3x64_S1024x64_1_0_0_1_n_n 3 rfl rfl).symm c) = ix2 r c :=
    funext fun a => Fin.ext (by
      match a with
      | ⟨0, _⟩ => exact lhs1_row _ _
      | ⟨1, _⟩ => exact (lhs1_contr _ _).trans hc)
  have er : dot_S1024x3_S3x64_S1024x64_1_0_0_1_n_n.rhsIdx (ix2 r o) ((contrEquiv1 dot_S1024x3_S3x64_S1024x64_1_0_0_1_n_n 3 rfl rfl).symm c) = ix2 c o :=
    funext fun a => Fin.ext (by
      match a with
      | ⟨0, _⟩ => exact (rhs1_contr _ _).trans hc
      | ⟨1, _⟩ => exact rhs1_col _ _)
  rw [el, er]

/-- The product plus the bias row broadcast down the rows is the affine layer of row `r`. -/
theorem layer1_apply (h : FVec Ideal S1024x3 .bf16) (W : FVec Ideal S3x64 .bf16) (b : FVec Ideal S1x64 .f32)
    (hb : S1x64.Broadcasts S1024x64) (r : Fin 1024) (o : Fin 64) :
    addf (matmul (F := Ideal) dot_S1024x3_S3x64_S1024x64_1_0_0_1_n_n none h W (constant S1024x64 .f32 0x00000000#32)) (broadcastTo S1024x64 b hb) (ix2 r o)
      = Cert.RowNet.affine (fun o c => W (ix2 c o)) (fun o => b (ix2 (0 : Fin 1) o)) (fun c => h (ix2 r c)) o := by
  refine (addf_apply _ _ _).trans ?_
  rw [prod1_apply]
  refine congrArg (fun t => (∑ c : Fin 3, h (ix2 r c) * W (ix2 c o)) + t) ?_
  refine broadcastTo_apply b hb (ix2 r o) (ix2 (0 : Fin 1) o) (fun a => ?_)
  match a with
  | ⟨0, _⟩ => show (0 : Nat) = if (1 : Nat) = 1 then 0 else _; rw [if_pos rfl]
  | ⟨1, _⟩ => show o.val = if (64 : Nat) = 1 then 0 else o.val; rw [if_neg (by decide)]

/-! ### The product of layer 2, read at a row and a column -/

theorem lhs2_row (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide),
    dif_pos (show (0 : Fin S1024x64.rank) ∈ dot_S1024x64_S64x128_S1024x128_1_0_0_1_n_n.lhsNonContracting by decide)]
  rfl

theorem lhs2_contr (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q

theorem rhs2_contr (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q

theorem rhs2_col (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide),
    dif_pos (show (1 : Fin S64x128.rank) ∈ dot_S1024x64_S64x128_S1024x128_1_0_0_1_n_n.rhsNonContracting by decide)]
  rfl

/-- Entry `(r, o)` of the product into a zero accumulator is the sum over the contracted coordinate. -/
theorem prod2_apply (h : FVec Ideal S1024x64 .bf16) (W : FVec Ideal S64x128 .bf16) (r : Fin 1024) (o : Fin 128) :
    matmul (F := Ideal) dot_S1024x64_S64x128_S1024x128_1_0_0_1_n_n none h W (constant S1024x128 .f32 0x00000000#32) (ix2 r o)
      = ∑ c : Fin 64, h (ix2 r c) * W (ix2 c o) := by
  show FloatOps.matmul (F := Ideal) dot_S1024x64_S64x128_S1024x128_1_0_0_1_n_n none h W (constant S1024x128 .f32 0x00000000#32) (ix2 r o) = _
  rw [Ideal.matmul_constant_zero_apply, ← Equiv.sum_comp (contrEquiv1 dot_S1024x64_S64x128_S1024x128_1_0_0_1_n_n 64 rfl rfl).symm]
  refine Finset.sum_congr rfl fun c _ => ?_
  have hc := contrEquiv1_symm_val dot_S1024x64_S64x128_S1024x128_1_0_0_1_n_n 64 rfl rfl c
  have el : dot_S1024x64_S64x128_S1024x128_1_0_0_1_n_n.lhsIdx (ix2 r o) ((contrEquiv1 dot_S1024x64_S64x128_S1024x128_1_0_0_1_n_n 64 rfl rfl).symm c) = ix2 r c :=
    funext fun a => Fin.ext (by
      match a with
      | ⟨0, _⟩ => exact lhs2_row _ _
      | ⟨1, _⟩ => exact (lhs2_contr _ _).trans hc)
  have er : dot_S1024x64_S64x128_S1024x128_1_0_0_1_n_n.rhsIdx (ix2 r o) ((contrEquiv1 dot_S1024x64_S64x128_S1024x128_1_0_0_1_n_n 64 rfl rfl).symm c) = ix2 c o :=
    funext fun a => Fin.ext (by
      match a with
      | ⟨0, _⟩ => exact (rhs2_contr _ _).trans hc
      | ⟨1, _⟩ => exact rhs2_col _ _)
  rw [el, er]

/-- The product plus the bias row broadcast down the rows is the affine layer of row `r`. -/
theorem layer2_apply (h : FVec Ideal S1024x64 .bf16) (W : FVec Ideal S64x128 .bf16) (b : FVec Ideal S1x128 .f32)
    (hb : S1x128.Broadcasts S1024x128) (r : Fin 1024) (o : Fin 128) :
    addf (matmul (F := Ideal) dot_S1024x64_S64x128_S1024x128_1_0_0_1_n_n none h W (constant S1024x128 .f32 0x00000000#32)) (broadcastTo S1024x128 b hb) (ix2 r o)
      = Cert.RowNet.affine (fun o c => W (ix2 c o)) (fun o => b (ix2 (0 : Fin 1) o)) (fun c => h (ix2 r c)) o := by
  refine (addf_apply _ _ _).trans ?_
  rw [prod2_apply]
  refine congrArg (fun t => (∑ c : Fin 64, h (ix2 r c) * W (ix2 c o)) + t) ?_
  refine broadcastTo_apply b hb (ix2 r o) (ix2 (0 : Fin 1) o) (fun a => ?_)
  match a with
  | ⟨0, _⟩ => show (0 : Nat) = if (1 : Nat) = 1 then 0 else _; rw [if_pos rfl]
  | ⟨1, _⟩ => show o.val = if (128 : Nat) = 1 then 0 else o.val; rw [if_neg (by decide)]

/-! ### The product of layer 3, read at a row and a column -/

theorem lhs3_row (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide),
    dif_pos (show (0 : Fin S1024x128.rank) ∈ dot_S1024x128_S128x256_S1024x256_1_0_0_1_n_n.lhsNonContracting by decide)]
  rfl

theorem lhs3_contr (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q

theorem rhs3_contr (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q

theorem rhs3_col (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide),
    dif_pos (show (1 : Fin S128x256.rank) ∈ dot_S1024x128_S128x256_S1024x256_1_0_0_1_n_n.rhsNonContracting by decide)]
  rfl

/-- Entry `(r, o)` of the product into a zero accumulator is the sum over the contracted coordinate. -/
theorem prod3_apply (h : FVec Ideal S1024x128 .bf16) (W : FVec Ideal S128x256 .bf16) (r : Fin 1024) (o : Fin 256) :
    matmul (F := Ideal) dot_S1024x128_S128x256_S1024x256_1_0_0_1_n_n none h W (constant S1024x256 .f32 0x00000000#32) (ix2 r o)
      = ∑ c : Fin 128, h (ix2 r c) * W (ix2 c o) := by
  show FloatOps.matmul (F := Ideal) dot_S1024x128_S128x256_S1024x256_1_0_0_1_n_n none h W (constant S1024x256 .f32 0x00000000#32) (ix2 r o) = _
  rw [Ideal.matmul_constant_zero_apply, ← Equiv.sum_comp (contrEquiv1 dot_S1024x128_S128x256_S1024x256_1_0_0_1_n_n 128 rfl rfl).symm]
  refine Finset.sum_congr rfl fun c _ => ?_
  have hc := contrEquiv1_symm_val dot_S1024x128_S128x256_S1024x256_1_0_0_1_n_n 128 rfl rfl c
  have el : dot_S1024x128_S128x256_S1024x256_1_0_0_1_n_n.lhsIdx (ix2 r o) ((contrEquiv1 dot_S1024x128_S128x256_S1024x256_1_0_0_1_n_n 128 rfl rfl).symm c) = ix2 r c :=
    funext fun a => Fin.ext (by
      match a with
      | ⟨0, _⟩ => exact lhs3_row _ _
      | ⟨1, _⟩ => exact (lhs3_contr _ _).trans hc)
  have er : dot_S1024x128_S128x256_S1024x256_1_0_0_1_n_n.rhsIdx (ix2 r o) ((contrEquiv1 dot_S1024x128_S128x256_S1024x256_1_0_0_1_n_n 128 rfl rfl).symm c) = ix2 c o :=
    funext fun a => Fin.ext (by
      match a with
      | ⟨0, _⟩ => exact (rhs3_contr _ _).trans hc
      | ⟨1, _⟩ => exact rhs3_col _ _)
  rw [el, er]

/-- The product plus the bias row broadcast down the rows is the affine layer of row `r`. -/
theorem layer3_apply (h : FVec Ideal S1024x128 .bf16) (W : FVec Ideal S128x256 .bf16) (b : FVec Ideal S1x256 .f32)
    (hb : S1x256.Broadcasts S1024x256) (r : Fin 1024) (o : Fin 256) :
    addf (matmul (F := Ideal) dot_S1024x128_S128x256_S1024x256_1_0_0_1_n_n none h W (constant S1024x256 .f32 0x00000000#32)) (broadcastTo S1024x256 b hb) (ix2 r o)
      = Cert.RowNet.affine (fun o c => W (ix2 c o)) (fun o => b (ix2 (0 : Fin 1) o)) (fun c => h (ix2 r c)) o := by
  refine (addf_apply _ _ _).trans ?_
  rw [prod3_apply]
  refine congrArg (fun t => (∑ c : Fin 128, h (ix2 r c) * W (ix2 c o)) + t) ?_
  refine broadcastTo_apply b hb (ix2 r o) (ix2 (0 : Fin 1) o) (fun a => ?_)
  match a with
  | ⟨0, _⟩ => show (0 : Nat) = if (1 : Nat) = 1 then 0 else _; rw [if_pos rfl]
  | ⟨1, _⟩ => show o.val = if (256 : Nat) = 1 then 0 else o.val; rw [if_neg (by decide)]

/-! ### The rectifier and the narrowing conversion, entry by entry -/

/-- The maximum with the splat of the float zero, then the conversion to the narrower format (the identity on the
    extended reals). -/
theorem rect_apply {s : Shape} (y : FVec Ideal s .f32) (hlt : FTy.bits .bf16 < FTy.bits .f32) (i : s.Idx) :
    truncf .bf16 (maximumf y (broadcast s (Scalar.ofBits (F := Ideal) .f32 0x00000000#32))) hlt i
      = max (y i) Cert.RowNet.floorWord := rfl

/-! ### The chunk's values, stage by stage -/

/-- The chunk's rows: the leading unit axis dropped. -/
def rowsIn (x : Vec Ideal S1x1024x3 .bf16) : FVec Ideal S1024x3 .bf16 :=
  shapeCast S1024x3 x shapeCasts_S1x1024x3_S1024x3

/-- The first hidden layer of every row. -/
def hid1 (v2 : FVec Ideal S3x64 .bf16) (v10 : FVec Ideal S1x64 .f32) (x : Vec Ideal S1x1024x3 .bf16) :
    FVec Ideal S1024x64 .bf16 :=
  truncf .bf16 (maximumf (addf (matmul dot_S1024x3_S3x64_S1024x64_1_0_0_1_n_n none (rowsIn x) v2 (constant S1024x64 .f32 0x00000000#32))
    (broadcastTo S1024x64 v10 broadcasts_S1x64_S1024x64)) (broadcast S1024x64 (Scalar.ofBits .f32 0x00000000#32)))
    bitsLt_bf16_f32

/-- The second hidden layer of every row. -/
def hid2 (v2 : FVec Ideal S3x64 .bf16) (v5 : FVec Ideal S64x128 .bf16) (v10 : FVec Ideal S1x64 .f32)
    (v12 : FVec Ideal S1x128 .f32) (x : Vec Ideal S1x1024x3 .bf16) : FVec Ideal S1024x128 .bf16 :=
  truncf .bf16 (maximumf (addf (matmul dot_S1024x64_S64x128_S1024x128_1_0_0_1_n_n none (hid1 v2 v10 x) v5 (constant S1024x128 .f32 0x00000000#32))
    (broadcastTo S1024x128 v12 broadcasts_S1x128_S1024x128)) (broadcast S1024x128 (Scalar.ofBits .f32 0x00000000#32)))
    bitsLt_bf16_f32

/-- The output layer of every row. -/
def out3 (v2 : FVec Ideal S3x64 .bf16) (v5 : FVec Ideal S64x128 .bf16) (v8 : FVec Ideal S128x256 .bf16)
    (v10 : FVec Ideal S1x64 .f32) (v12 : FVec Ideal S1x128 .f32) (v14 : FVec Ideal S1x256 .f32)
    (x : Vec Ideal S1x1024x3 .bf16) : FVec Ideal S1024x256 .f32 :=
  addf (matmul dot_S1024x128_S128x256_S1024x256_1_0_0_1_n_n none (hid2 v2 v5 v10 v12 x) v8 (constant S1024x256 .f32 0x00000000#32))
    (broadcastTo S1024x256 v14 broadcasts_S1x256_S1024x256)

/-- The chunk's arithmetic is the output layer of every row, regrouped 32 by 32, reduced over the middle axis, with a
    leading unit axis added. -/
theorem k0_pay1_eq (v2 : FVec Ideal S3x64 .bf16) (v5 : FVec Ideal S64x128 .bf16) (v8 : FVec Ideal S128x256 .bf16)
    (v10 : FVec Ideal S1x64 .f32) (v12 : FVec Ideal S1x128 .f32) (v14 : FVec Ideal S1x256 .f32)
    (x : Vec Ideal S1x1024x3 .bf16) :
    k0_pay1 (F := Ideal) v2 v5 v8 v10 v12 v14 x
      = shapeCast S1x32x256 (multiReduction .maximumf [1] S32x256
          (shapeCast S32x32x256 (out3 v2 v5 v8 v10 v12 v14 x) shapeCasts_S1024x256_S32x32x256) 0xFF800000#32
          reduces_S32x32x256_S32x256 (.inl rfl) rfl) shapeCasts_S32x256_S1x32x256 := rfl

/-- Row `r`, coordinate `c` of the chunk's rows. -/
theorem rowsIn_apply (x : Vec Ideal S1x1024x3 .bf16) (r : Fin 1024) (c : Fin 3) :
    rowsIn x (ix2 r c) = x (ix3 (0 : Fin 1) r c) := by
  unfold rowsIn
  refine shapeCast_apply x shapeCasts_S1x1024x3_S1024x3 (ix2 r c) (ix3 (0 : Fin 1) r c) ?_
  rw [Shape.rowMajor_val_three, Shape.rowMajor_val_two]
  show ((0 : Nat) * 1024 + r.val) * 3 + c.val = r.val * 3 + c.val
  omega

/-- Row `r` of the first hidden layer. -/
theorem hid1_apply (v2 : FVec Ideal S3x64 .bf16) (v10 : FVec Ideal S1x64 .f32) (x : Vec Ideal S1x1024x3 .bf16)
    (r : Fin 1024) (o : Fin 64) :
    hid1 v2 v10 x (ix2 r o)
      = Cert.RowNet.rect (Cert.RowNet.affine (fun o c => v2 (ix2 c o)) (fun o => v10 (ix2 (0 : Fin 1) o))
          (fun c => x (ix3 (0 : Fin 1) r c))) o := by
  unfold hid1
  refine (rect_apply _ _ _).trans ?_
  rw [layer1_apply]
  show max _ _ = max _ _
  refine congrArg (fun t => max (Cert.RowNet.affine (fun o c => v2 (ix2 c o)) (fun o => v10 (ix2 (0 : Fin 1) o)) t o)
    Cert.RowNet.floorWord) ?_
  exact funext fun c => rowsIn_apply x r c

/-- Row `r` of the second hidden layer. -/
theorem hid2_apply (v2 : FVec Ideal S3x64 .bf16) (v5 : FVec Ideal S64x128 .bf16) (v10 : FVec Ideal S1x64 .f32)
    (v12 : FVec Ideal S1x128 .f32) (x : Vec Ideal S1x1024x3 .bf16) (r : Fin 1024) (o : Fin 128) :
    hid2 v2 v5 v10 v12 x (ix2 r o)
      = Cert.RowNet.rect (Cert.RowNet.affine (fun o c => v5 (ix2 c o)) (fun o => v12 (ix2 (0 : Fin 1) o))
          (Cert.RowNet.rect (Cert.RowNet.affine (fun o c => v2 (ix2 c o)) (fun o => v10 (ix2 (0 : Fin 1) o))
            (fun c => x (ix3 (0 : Fin 1) r c))))) o := by
  unfold hid2
  refine (rect_apply _ _ _).trans ?_
  rw [layer2_apply]
  show max _ _ = max _ _
  refine congrArg (fun t => max (Cert.RowNet.affine (fun o c => v5 (ix2 c o)) (fun o => v12 (ix2 (0 : Fin 1) o)) t o)
    Cert.RowNet.floorWord) ?_
  exact funext fun c => hid1_apply v2 v10 x r c

/-- Row `r` of the output layer is the network of row `r`. -/
theorem out3_apply (v2 : FVec Ideal S3x64 .bf16) (v5 : FVec Ideal S64x128 .bf16) (v8 : FVec Ideal S128x256 .bf16)
    (v10 : FVec Ideal S1x64 .f32) (v12 : FVec Ideal S1x128 .f32) (v14 : FVec Ideal S1x256 .f32)
    (x : Vec Ideal S1x1024x3 .bf16) (r : Fin 1024) (e : Fin 256) :
    out3 v2 v5 v8 v10 v12 v14 x (ix2 r e)
      = Cert.RowNet.net (fun o c => v2 (ix2 c o)) (fun o => v10 (ix2 (0 : Fin 1) o)) (fun o c => v5 (ix2 c o))
          (fun o => v12 (ix2 (0 : Fin 1) o)) (fun o c => v8 (ix2 c o)) (fun o => v14 (ix2 (0 : Fin 1) o))
          (fun c => x (ix3 (0 : Fin 1) r c)) e := by
  unfold out3
  rw [layer3_apply]
  unfold Cert.RowNet.net
  refine congrArg (fun t => Cert.RowNet.affine (fun o c => v8 (ix2 c o)) (fun o => v14 (ix2 (0 : Fin 1) o)) t e) ?_
  exact funext fun c => hid2_apply v2 v5 v10 v12 x r c

/-! ### The regrouping and the maximum -/

/-- The cast of 1024 rows to 32 groups of 32 is row-major: entry `(p, k, e)` is entry `(32 p + k, e)`. -/
theorem grouped_apply (y : FVec Ideal S1024x256 .f32) (p k : Fin 32) (e : Fin 256) :
    shapeCast S32x32x256 y shapeCasts_S1024x256_S32x32x256 (ix3 p k e)
      = y (ix2 (⟨32 * p.val + k.val, by have := p.isLt; have := k.isLt; omega⟩ : Fin 1024) e) := by
  refine shapeCast_apply y shapeCasts_S1024x256_S32x32x256 (ix3 p k e) _ ?_
  rw [Shape.rowMajor_val_three, Shape.rowMajor_val_two]
  show (32 * p.val + k.val) * 256 + e.val = (p.val * 32 + k.val) * 256 + e.val
  omega

/-- Over result entry `(p, e)`, the source entry with coordinate `k` on the reduced axis is `(p, k, e)`. -/
theorem lift_apply (p : Fin 32) (e : Fin 256) (k : Fin 32) :
    reduces_S32x32x256_S32x256.lift (ix2 p e) k = ix3 p k e :=
  funext fun a => Fin.ext (by
    match a with
    | ⟨0, _⟩ => rfl
    | ⟨1, _⟩ => rfl
    | ⟨2, _⟩ => rfl)

/-- Centre `p`, channel `e` of the chunk's result is the maximum over the centre's 32 neighbour rows of the network's
    channel `e`; neighbour `k` of centre `p` is row `32 p + k` of the chunk. -/
theorem chunk_apply (v2 : FVec Ideal S3x64 .bf16) (v5 : FVec Ideal S64x128 .bf16) (v8 : FVec Ideal S128x256 .bf16) (v10 : FVec Ideal S1x64 .f32) (v12 : FVec Ideal S1x128 .f32) (v14 : FVec Ideal S1x256 .f32) (x : Vec Ideal S1x1024x3 .bf16) (p : Fin 32) (e : Fin 256) :
    k0_pay1 (F := Ideal) v2 v5 v8 v10 v12 v14 x (ix3 (0 : Fin 1) p e)
      = Cert.RowNet.pooled (fun o c => v2 (ix2 c o)) (fun o => v10 (ix2 (0 : Fin 1) o)) (fun o c => v5 (ix2 c o)) (fun o => v12 (ix2 (0 : Fin 1) o))
          (fun o c => v8 (ix2 c o)) (fun o => v14 (ix2 (0 : Fin 1) o))
          (fun k c => x (ix3 (0 : Fin 1) (⟨32 * p.val + k.val, by have := p.isLt; have := k.isLt; omega⟩ : Fin 1024) c)) e := by
  rw [k0_pay1_eq]
  refine (shapeCast_addUnit_apply (![32, 256]) _ shapeCasts_S32x256_S1x32x256 (ix3 (0 : Fin 1) p e)).trans ?_
  have hj : (fun a : Fin 2 => ix3 (0 : Fin 1) p e a.succ) = ix2 p e :=
    funext fun a => by
      match a with
      | ⟨0, _⟩ => rfl
      | ⟨1, _⟩ => rfl
  rw [hj]
  refine (Ideal.multiReduction_maximumf_single _ _ reduces_S32x32x256_S32x256 _ _ (ix2 p e)).trans ?_
  unfold Cert.RowNet.pooled
  have hf : ∀ k : Fin 32,
      shapeCast S32x32x256 (out3 v2 v5 v8 v10 v12 v14 x) shapeCasts_S1024x256_S32x32x256
          (reduces_S32x32x256_S32x256.lift (ix2 p e) k)
        = Cert.RowNet.net (fun o c => v2 (ix2 c o)) (fun o => v10 (ix2 (0 : Fin 1) o)) (fun o c => v5 (ix2 c o))
            (fun o => v12 (ix2 (0 : Fin 1) o)) (fun o c => v8 (ix2 c o)) (fun o => v14 (ix2 (0 : Fin 1) o))
            (fun c => x (ix3 (0 : Fin 1) (⟨32 * p.val + k.val, by have := p.isLt; have := k.isLt; omega⟩ : Fin 1024) c)) e :=
    fun k => by rw [lift_apply, grouped_apply, out3_apply]
  exact Finset.fold_congr (fun k _ => hf k)

end Cert.KernelIdeal.ChunkValue

end
-- ==== Proof.KernelBlock.lean ====
/-
  What one grid point writes. The body handles its block of 16384 offset rows in sixteen chunks of 1024 rows (32 centres of 32
  neighbours each): each chunk goes through the three layers and is reduced over the neighbours to 32 output rows, stored at
  the chunk's place in the 512-row output block. Every chunk is the same function of the weights and of its own rows, and the
  sixteen stores tile the output block, so the block as a whole is one function of the point's input blocks: row `r`, channel
  `e` is the pooled network of rows `32 r .. 32 r + 31` of the input block.
-/
import proofs.«417574_j5583457485374_3_alg».proof.Proof.Gen.KernelIdeal.Frame
import Idealize.ShloMosaic.Lib.Pipeline.Value
import Idealize.ShloMosaic.PureOps.Ideal.Laws
import proofs.«417574_j5583457485374_3_alg».proof.Proof.RowNet
import proofs.«417574_j5583457485374_3_alg».proof.Proof.ChunkValue

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.KernelIdeal.ChunkValue

/-! ## Every store's payload is the same function of the six weight operands and the rows it loads

The body is sixteen copies of one computation. Each copy's value is named by one or two intermediate terms; unfolded, all sixteen are the
one chunk function. -/

section Chunks
variable {F : FTy → Type} [FloatOps F]
theorem pay10_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay10 v2 v5 v8 v10 v12 v14 x = k0_pay1 v2 v5 v8 v10 v12 v14 x := rfl
theorem pay11_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay11 v2 v5 v8 v10 v12 v14 x = k0_pay1 v2 v5 v8 v10 v12 v14 x := rfl
theorem pay14_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay14 v2 v5 v8 v10 v12 v14 x = k0_pay1 v2 v5 v8 v10 v12 v14 x := rfl
theorem pay15_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay15 v2 v5 v8 v10 v12 v14 x = k0_pay1 v2 v5 v8 v10 v12 v14 x := rfl
theorem pay20_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay20 v2 v5 v8 v10 v12 v14 x = k0_pay1 v2 v5 v8 v10 v12 v14 x := rfl
theorem pay25_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay25 v2 v5 v8 v10 v12 v14 x = k0_pay1 v2 v5 v8 v10 v12 v14 x := rfl
theorem pay26_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay26 v2 v5 v8 v10 v12 v14 x = k0_pay1 v2 v5 v8 v10 v12 v14 x := rfl
theorem pay29_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay29 v2 v5 v8 v10 v12 v14 x = k0_pay1 v2 v5 v8 v10 v12 v14 x := rfl
theorem pay13_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay13 v8 v14 (k0_pay12 v2 v5 v10 v12 x) = k0_pay1 v2 v5 v8 v10 v12 v14 x := rfl
theorem pay17_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay17 v8 v12 v14 (k0_pay16 v2 v5 v10 x) = k0_pay1 v2 v5 v8 v10 v12 v14 x := rfl
theorem pay19_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay19 (k0_pay18 v2 v5 v8 v10 v12 v14 x) = k0_pay1 v2 v5 v8 v10 v12 v14 x := rfl
theorem pay22_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay22 v5 v8 v12 v14 (k0_pay21 v2 v10 x) = k0_pay1 v2 v5 v8 v10 v12 v14 x := rfl
theorem pay24_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay24 (k0_pay23 v2 v5 v8 v10 v12 v14 x) = k0_pay1 v2 v5 v8 v10 v12 v14 x := rfl
theorem pay28_eq (v2 : FVec F S3x64 .bf16) (v5 : FVec F S64x128 .bf16) (v8 : FVec F S128x256 .bf16) (v10 : FVec F S1x64 .f32) (v12 : FVec F S1x128 .f32) (v14 : FVec F S1x256 .f32) (x : Vec F S1x1024x3 .bf16) : k0_pay28 v8 v14 (k0_pay27 v2 v5 v10 v12 x) = k0_pay1 v2 v5 v8 v10 v12 v14 x := rfl
theorem pay9_eq (a : Vec F S3x64 .f32) (b : Vec F S64x128 .f32) (d : Vec F S128x256 .f32) (b1 : Vec F S1x64 .f32) (b2 : Vec F S1x128 .f32) (b3 : Vec F S1x256 .f32) (x : Vec F S1x1024x3 .bf16) :
    k0_pay9 (k0_pay8 a b d b1 b2 b3 x) = k0_pay1 (k0_pay2 a) (k0_pay3 b) (k0_pay4 d) (k0_pay5 b1) (k0_pay6 b2) (k0_pay7 b3) x := rfl
end Chunks

/-! ## The weight operands at the ideal values: narrowing and the same-shape cast change nothing -/

theorem pay2_apply (w : Vec Ideal S3x64 .f32) (i : S3x64.Idx) : k0_pay2 (F := Ideal) w i = w i := by
  unfold k0_pay2; rw [shapeCast_self]; rfl
theorem pay3_apply (w : Vec Ideal S64x128 .f32) (i : S64x128.Idx) : k0_pay3 (F := Ideal) w i = w i := by
  unfold k0_pay3; rw [shapeCast_self]; rfl
theorem pay4_apply (w : Vec Ideal S128x256 .f32) (i : S128x256.Idx) : k0_pay4 (F := Ideal) w i = w i := by
  unfold k0_pay4; rw [shapeCast_self]; rfl
theorem pay5_apply (w : Vec Ideal S1x64 .f32) (i : S1x64.Idx) : k0_pay5 (F := Ideal) w i = w i := by
  unfold k0_pay5; rw [shapeCast_self]
theorem pay6_apply (w : Vec Ideal S1x128 .f32) (i : S1x128.Idx) : k0_pay6 (F := Ideal) w i = w i := by
  unfold k0_pay6; rw [shapeCast_self]
theorem pay7_apply (w : Vec Ideal S1x256 .f32) (i : S1x256.Idx) : k0_pay7 (F := Ideal) w i = w i := by
  unfold k0_pay7; rw [shapeCast_self]

theorem zero2 : (![0, 0] : Fin 2 → Nat) = fun _ => 0 := funext fun a => by fin_cases a <;> rfl

/-! ## The block a grid point writes -/

/-- Row `r` (of the point's 512 centres) and channel `e` of the block a grid point writes: the pooled network of the 32 rows
    `32 r + k` of the point's block of offset vectors, the weight blocks read transposed (they arrive as input-by-output). -/
def blockFn (x0 : Vec Ideal S1x16384x3 .bf16) (x1 : Vec Ideal S3x64 .f32) (x2 : Vec Ideal S1x64 .f32) (x3 : Vec Ideal S64x128 .f32) (x4 : Vec Ideal S1x128 .f32) (x5 : Vec Ideal S128x256 .f32) (x6 : Vec Ideal S1x256 .f32) (r : Fin 512) (e : Fin 256) : EReal :=
  Cert.RowNet.pooled (fun o c => x1 (ix2 c o)) (fun o => x2 (ix2 (0 : Fin 1) o)) (fun o c => x3 (ix2 c o)) (fun o => x4 (ix2 (0 : Fin 1) o))
    (fun o c => x5 (ix2 c o)) (fun o => x6 (ix2 (0 : Fin 1) o))
    (fun k c => x0 (ix3 (0 : Fin 1) (⟨32 * r.val + k.val, by have := r.isLt; have := k.isLt; omega⟩ : Fin 16384) c)) e

/-- The store at row offset `R` whose rows were loaded at row offset `32 R`: at its own index (centre `p` of its 32, channel `e`) its payload is
    the block function at row `R + p`. Centre `R + p`'s neighbour `k` is row `32 (R + p) + k = 32 R + (32 p + k)` of the block, which is row
    `32 p + k` of the rows loaded. -/
theorem piece_eq (x0 : Vec Ideal S1x16384x3 .bf16) (x1 : Vec Ideal S3x64 .f32) (x2 : Vec Ideal S1x64 .f32) (x3 : Vec Ideal S64x128 .f32) (x4 : Vec Ideal S1x128 .f32) (x5 : Vec Ideal S128x256 .f32) (x6 : Vec Ideal S1x256 .f32) (R L : Nat) (hL : L = 32 * R) (hR : R + 32 ≤ 512)
    (inb1 : ∀ a, (![0, L, 0] : Fin 3 → Nat) a + (![1, 1024, 3] : Fin 3 → Nat) a ≤ S1x16384x3.size a)
    (inb2 : ∀ a, (![0, R, 0] : Fin 3 → Nat) a + (![1, 32, 256] : Fin 3 → Nat) a ≤ S1x512x256.size a)
    (inbA inbB inbC inbD inbE inbF)
    (x : (Rect.unit (s := S1x512x256) ![0, R, 0] ![1, 32, 256] inb2).shape.Idx) :
    k0_pay1 (F := Ideal) (k0_pay2 (View.ld x1 (Rect.unit ![0, 0] ![3, 64] inbA))) (k0_pay3 (View.ld x3 (Rect.unit ![0, 0] ![64, 128] inbB)))
        (k0_pay4 (View.ld x5 (Rect.unit ![0, 0] ![128, 256] inbC))) (k0_pay5 (View.ld x2 (Rect.unit ![0, 0] ![1, 64] inbD)))
        (k0_pay6 (View.ld x4 (Rect.unit ![0, 0] ![1, 128] inbE))) (k0_pay7 (View.ld x6 (Rect.unit ![0, 0] ![1, 256] inbF)))
        (View.ld x0 (Rect.unit (s := S1x16384x3) ![0, L, 0] ![1, 1024, 3] inb1)) x
      = blockFn x0 x1 x2 x3 x4 x5 x6
          ⟨((Rect.unit (s := S1x512x256) ![0, R, 0] ![1, 32, 256] inb2).emb x 1).val, ((Rect.unit (s := S1x512x256) ![0, R, 0] ![1, 32, 256] inb2).emb x 1).isLt⟩
          ⟨((Rect.unit (s := S1x512x256) ![0, R, 0] ![1, 32, 256] inb2).emb x 2).val, ((Rect.unit (s := S1x512x256) ![0, R, 0] ![1, 32, 256] inb2).emb x 2).isLt⟩ := by
  obtain ⟨p, e, rfl⟩ : ∃ (p : Fin 32) (e : Fin 256), x = ix3 (0 : Fin 1) p e :=
    ⟨x 1, x 2, by
      funext a
      match a with
      | ⟨0, _⟩ => exact Fin.ext (by have h : (x 0).val < 1 := (x 0).isLt; show (x 0).val = 0; omega)
      | ⟨1, _⟩ => rfl
      | ⟨2, _⟩ => rfl⟩
  refine (chunk_apply _ _ _ _ _ _ _ p e).trans ?_
  unfold blockFn
  have he : (⟨((Rect.unit (s := S1x512x256) ![0, R, 0] ![1, 32, 256] inb2).emb (ix3 (0 : Fin 1) p e) 2).val,
      ((Rect.unit (s := S1x512x256) ![0, R, 0] ![1, 32, 256] inb2).emb (ix3 (0 : Fin 1) p e) 2).isLt⟩ : Fin 256) = e :=
    Fin.ext (by show 0 + 1 * e.val = e.val; omega)
  rw [he]
  refine Cert.RowNet.pooled_congr (fun o c => ?_) (fun o => ?_) (fun o c => ?_) (fun o => ?_) (fun o c => ?_) (fun o => ?_) (fun k c => ?_) e
  · rw [pay2_apply, View.ld_unit_zero (S := S3x64) zero2]
  · rw [pay5_apply, View.ld_unit_zero (S := S1x64) zero2]
  · rw [pay3_apply, View.ld_unit_zero (S := S64x128) zero2]
  · rw [pay6_apply, View.ld_unit_zero (S := S1x128) zero2]
  · rw [pay4_apply, View.ld_unit_zero (S := S128x256) zero2]
  · rw [pay7_apply, View.ld_unit_zero (S := S1x256) zero2]
  · show x0 ((Rect.unit (s := S1x16384x3) ![0, L, 0] ![1, 1024, 3] inb1).idx _) = x0 _
    refine congrArg x0 (funext fun a => Fin.ext ?_)
    have hp := p.isLt
    have hk := k.isLt
    match a with
    | ⟨0, _⟩ => show 0 + 1 * 0 = 0; omega
    | ⟨1, _⟩ => show L + 1 * (32 * p.val + k.val) = 32 * (R + 1 * p.val) + k.val; omega
    | ⟨2, _⟩ => show 0 + 1 * c.val = c.val; omega

/-- What a grid point's run leaves in the output's staging buffer, read at centre `r` and channel `e`: the sixteen stores tile the
    block, each with the chunk function of its own rows, so together they hold the block function. -/
theorem out_apply (c : Dev nD) (i : grid0.Coords) (arg2 : Memref sig .tc .vmem S1x16384x3 .bf16) (harg2 : arg2.IsWhole) (arg3 : Memref sig .tc .vmem S3x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x512x256 .f32) (harg9 : arg9.IsWhole)
    (x0 : Vec Ideal S1x16384x3 .bf16) (x1 : Vec Ideal S3x64 .f32) (x2 : Vec Ideal S1x64 .f32) (x3 : Vec Ideal S64x128 .f32) (x4 : Vec Ideal S1x128 .f32) (x5 : Vec Ideal S128x256 .f32) (x6 : Vec Ideal S1x256 .f32) (r : Fin 512) (e : Fin 256) :
    out0_A_7 (F := Ideal) c i arg2 harg2 arg3 harg3 arg4 harg4 arg5 harg5 arg6 harg6 arg7 harg7 arg8 harg8 arg9 harg9 x0 x1 x2 x3 x4 x5 x6 (ix3 (0 : Fin 1) r e) = blockFn x0 x1 x2 x3 x4 x5 x6 r e := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  refine View.canon_apply_of_pieces (fun y => blockFn x0 x1 x2 x3 x4 x5 x6 ⟨(y 1).val, (y 1).isLt⟩ ⟨(y 2).val, (y 2).isLt⟩) _ ?_ (ix3 (0 : Fin 1) r e) (cover0_A_7 c i arg2 harg2 arg3 harg3 arg4 harg4 arg5 harg5 arg6 harg6 arg7 harg7 arg8 harg8 arg9 harg9 x0 x1 x2 x3 x4 x5 x6 (ix3 (0 : Fin 1) r e))
  unfold kernelRun0_A
  dsimp only
  sl_unfold_words
  simp only [View.readAt_eq_ld, harg2.read_unread, harg3.read_unread, harg4.read_unread, harg5.read_unread, harg6.read_unread, harg7.read_unread, harg8.read_unread,
    pay29_eq, pay28_eq, pay26_eq, pay25_eq, pay24_eq, pay22_eq, pay20_eq, pay19_eq, pay17_eq, pay15_eq, pay14_eq, pay13_eq, pay11_eq, pay10_eq, pay9_eq]
  intro p hp
  simp only [List.mem_cons, List.not_mem_nil, or_false] at hp
  rcases hp with rfl | rfl | rfl | rfl | rfl | rfl | rfl | rfl | rfl | rfl | rfl | rfl | rfl | rfl | rfl | rfl
  · intro x; dsimp only; exact piece_eq x0 x1 x2 x3 x4 x5 x6 480 15360 rfl (by omega) _ _ _ _ _ _ _ _ x
  · intro x; dsimp only; exact piece_eq x0 x1 x2 x3 x4 x5 x6 448 14336 rfl (by omega) _ _ _ _ _ _ _ _ x
  · intro x; dsimp only; exact piece_eq x0 x1 x2 x3 x4 x5 x6 416 13312 rfl (by omega) _ _ _ _ _ _ _ _ x
  · intro x; dsimp only; exact piece_eq x0 x1 x2 x3 x4 x5 x6 384 12288 rfl (by omega) _ _ _ _ _ _ _ _ x
  · intro x; dsimp only; exact piece_eq x0 x1 x2 x3 x4 x5 x6 352 11264 rfl (by omega) _ _ _ _ _ _ _ _ x
  · intro x; dsimp only; exact piece_eq x0 x1 x2 x3 x4 x5 x6 320 10240 rfl (by omega) _ _ _ _ _ _ _ _ x
  · intro x; dsimp only; exact piece_eq x0 x1 x2 x3 x4 x5 x6 288 9216 rfl (by omega) _ _ _ _ _ _ _ _ x
  · intro x; dsimp only; exact piece_eq x0 x1 x2 x3 x4 x5 x6 256 8192 rfl (by omega) _ _ _ _ _ _ _ _ x
  · intro x; dsimp only; exact piece_eq x0 x1 x2 x3 x4 x5 x6 224 7168 rfl (by omega) _ _ _ _ _ _ _ _ x
  · intro x; dsimp only; exact piece_eq x0 x1 x2 x3 x4 x5 x6 192 6144 rfl (by omega) _ _ _ _ _ _ _ _ x
  · intro x; dsimp only; exact piece_eq x0 x1 x2 x3 x4 x5 x6 160 5120 rfl (by omega) _ _ _ _ _ _ _ _ x
  · intro x; dsimp only; exact piece_eq x0 x1 x2 x3 x4 x5 x6 128 4096 rfl (by omega) _ _ _ _ _ _ _ _ x
  · intro x; dsimp only; exact piece_eq x0 x1 x2 x3 x4 x5 x6 96 3072 rfl (by omega) _ _ _ _ _ _ _ _ x
  · intro x; dsimp only; exact piece_eq x0 x1 x2 x3 x4 x5 x6 64 2048 rfl (by omega) _ _ _ _ _ _ _ _ x
  · intro x; dsimp only; exact piece_eq x0 x1 x2 x3 x4 x5 x6 32 1024 rfl (by omega) _ _ _ _ _ _ _ _ x
  · intro x; dsimp only; exact piece_eq x0 x1 x2 x3 x4 x5 x6 0 0 rfl (by omega) _ _ _ _ _ _ _ _ x

/-- The same at any index of the block: its first coordinate is 0 (the block has one leading row). -/
theorem out_apply_idx (c : Dev nD) (i : grid0.Coords) (arg2 : Memref sig .tc .vmem S1x16384x3 .bf16) (harg2 : arg2.IsWhole) (arg3 : Memref sig .tc .vmem S3x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x512x256 .f32) (harg9 : arg9.IsWhole)
    (x0 : Vec Ideal S1x16384x3 .bf16) (x1 : Vec Ideal S3x64 .f32) (x2 : Vec Ideal S1x64 .f32) (x3 : Vec Ideal S64x128 .f32) (x4 : Vec Ideal S1x128 .f32) (x5 : Vec Ideal S128x256 .f32) (x6 : Vec Ideal S1x256 .f32) (y : S1x512x256.Idx) :
    out0_A_7 (F := Ideal) c i arg2 harg2 arg3 harg3 arg4 harg4 arg5 harg5 arg6 harg6 arg7 harg7 arg8 harg8 arg9 harg9 x0 x1 x2 x3 x4 x5 x6 y = blockFn x0 x1 x2 x3 x4 x5 x6 ⟨(y 1).val, (y 1).isLt⟩ ⟨(y 2).val, (y 2).isLt⟩ := by
  have hy : y = ix3 (0 : Fin 1) (⟨(y 1).val, (y 1).isLt⟩ : Fin 512) (⟨(y 2).val, (y 2).isLt⟩ : Fin 256) := by
    funext a
    match a with
    | ⟨0, _⟩ => exact Fin.ext (by have h : (y 0).val < 1 := (y 0).isLt; show (y 0).val = 0; omega)
    | ⟨1, _⟩ => rfl
    | ⟨2, _⟩ => rfl
  exact (congrArg (out0_A_7 (F := Ideal) c i arg2 harg2 arg3 harg3 arg4 harg4 arg5 harg5 arg6 harg6 arg7 harg7 arg8 harg8 arg9 harg9 x0 x1 x2 x3 x4 x5 x6) hy).trans (out_apply c i arg2 harg2 arg3 harg3 arg4 harg4 arg5 harg5 arg6 harg6 arg7 harg7 arg8 harg8 arg9 harg9 x0 x1 x2 x3 x4 x5 x6 _ _)

end Cert.KernelIdeal.BlockValue
end
-- ==== Proof.KernelArray.lean ====
/-
  From one grid point's block to the whole output array. The grid is (batch, quarter): point (b, q) stages rows `16384 q ..` of batch `b` of
  the offset array and the whole of each weight array, and its 512 output rows are rows `512 q ..` of batch `b` of the output. This module
  names the arrays the region finds, states the output array's function of them, and reads each input block as a part of its array.
-/
import proofs.«417574_j5583457485374_3_alg».proof.Proof.Gen.KernelIdeal.Value
import proofs.«417574_j5583457485374_3_alg».proof.Proof.KernelBlock
import Idealize.ShloMosaic.Lib.Pipeline.Value

set_option maxRecDepth 16384

noncomputable section

namespace Cert.KernelIdeal.ArrayValue

open Idealize.ShloMosaic Idealize.ShloMosaic.TcCoe Idealize.SL.Sem
open Idealize.ShloMosaic.Pipeline (Dat)
open Cert.KernelIdeal Cert.KernelIdeal.Gen Idealize.ShloMosaic.ValueIdx Cert.KernelIdeal.BlockValue

variable (m : (ℓ : Loc nD τ sig) → Buf (Elt Ideal) ℓ) (ρ : Dev nD → PrngReg)

/-- The arrays the region finds, at their literal types. -/
abbrev lArr (c : Dev nD) : Vec Ideal S8x65536x3 .bf16 := V m c main_v7
abbrev w1Arr (c : Dev nD) : Vec Ideal S3x64 .f32 := V m c main_v8
abbrev b1Arr (c : Dev nD) : Vec Ideal S1x64 .f32 := V m c main_v11
abbrev w2Arr (c : Dev nD) : Vec Ideal S64x128 .f32 := V m c main_v9
abbrev b2Arr (c : Dev nD) : Vec Ideal S1x128 .f32 := V m c main_v12
abbrev w3Arr (c : Dev nD) : Vec Ideal S128x256 .f32 := V m c main_v10
abbrev b3Arr (c : Dev nD) : Vec Ideal S1x256 .f32 := V m c main_v13

theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_7.index t (0 : Fin 3) < 8 ∧ win0_7.index t (1 : Fin 3) < 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

theorem mem_blk (t : Fin cfg0.N) (i : S8x2048x256.Idx) :
    i ∈ ((cfg0.win 7).blk t).view.set ↔ ∀ a : Fin 3, win0_7.index t a * S1x512x256.size a ≤ (i a).val ∧ (i a).val < win0_7.index t a * S1x512x256.size a + S1x512x256.size a := by
  show i ∈ ((View.whole main_v14).slice (win0_7.rect t)).set ↔ _
  rw [View.set_slice_whole, Rect.mem_set_unit]
  exact Iff.rfl

/-- What the output array holds, as a function of the seven arrays the region reads: centre `mm` of batch `b`, channel `e`, is the
    pooled network of rows `32 mm .. 32 mm + 31` of batch `b` of the offset array, with the weight arrays read transposed and the
    biases as one-row arrays. -/
def finalOf (A0 : Vec Ideal S8x65536x3 .bf16) (A1 : Vec Ideal S3x64 .f32) (A2 : Vec Ideal S1x64 .f32) (A3 : Vec Ideal S64x128 .f32) (A4 : Vec Ideal S1x128 .f32) (A5 : Vec Ideal S128x256 .f32) (A6 : Vec Ideal S1x256 .f32) : S8x2048x256.Idx → EReal := fun i =>
  Cert.RowNet.pooled (fun o ch => A1 (ix2 ch o)) (fun o => A2 (ix2 (0 : Fin 1) o)) (fun o ch => A3 (ix2 ch o)) (fun o => A4 (ix2 (0 : Fin 1) o))
    (fun o ch => A5 (ix2 ch o)) (fun o => A6 (ix2 (0 : Fin 1) o))
    (fun k ch => A0 (ix3 (⟨(i 0).val, (i 0).isLt⟩ : Fin 8) (⟨32 * (i 1).val + k.val, by have h1 : (i 1).val < 2048 := (i 1).isLt; have := k.isLt; omega⟩ : Fin 65536) ch))
    (⟨(i 2).val, (i 2).isLt⟩ : Fin 256)

/-- A point's block against the array. If the point's offset block is rows `16384 I1 ..` of batch `I0` of the offset array and its
    weight blocks are the weight arrays, then row `r` of what it writes is centre `512 I1 + r` of batch `I0` of `finalOf`: that centre's
    neighbour `k` is offset row `32 (512 I1 + r) + k = 16384 I1 + (32 r + k)`. -/
theorem block_to_final (X0 : Vec Ideal S1x16384x3 .bf16) (X1 : Vec Ideal S3x64 .f32) (X2 : Vec Ideal S1x64 .f32) (X3 : Vec Ideal S64x128 .f32) (X4 : Vec Ideal S1x128 .f32) (X5 : Vec Ideal S128x256 .f32) (X6 : Vec Ideal S1x256 .f32) (A0 : Vec Ideal S8x65536x3 .bf16) (A1 : Vec Ideal S3x64 .f32) (A2 : Vec Ideal S1x64 .f32) (A3 : Vec Ideal S64x128 .f32) (A4 : Vec Ideal S1x128 .f32) (A5 : Vec Ideal S128x256 .f32) (A6 : Vec Ideal S1x256 .f32) (I0 I1 : Nat) (hI0 : I0 < 8) (hI1 : I1 < 4)
    (h0 : ∀ (row : Fin 16384) (ch : Fin 3), X0 (ix3 (0 : Fin 1) row ch) = A0 (ix3 (⟨I0, hI0⟩ : Fin 8) (⟨I1 * 16384 + row.val, by have := row.isLt; omega⟩ : Fin 65536) ch))
    (h1 : ∀ (ch : Fin 3) (o : Fin 64), X1 (ix2 ch o) = A1 (ix2 ch o)) (h2 : ∀ o : Fin 64, X2 (ix2 (0 : Fin 1) o) = A2 (ix2 (0 : Fin 1) o))
    (h3 : ∀ (ch : Fin 64) (o : Fin 128), X3 (ix2 ch o) = A3 (ix2 ch o)) (h4 : ∀ o : Fin 128, X4 (ix2 (0 : Fin 1) o) = A4 (ix2 (0 : Fin 1) o))
    (h5 : ∀ (ch : Fin 128) (o : Fin 256), X5 (ix2 ch o) = A5 (ix2 ch o)) (h6 : ∀ o : Fin 256, X6 (ix2 (0 : Fin 1) o) = A6 (ix2 (0 : Fin 1) o))
    (r : Fin 512) (e : Fin 256) (i : S8x2048x256.Idx) (hi0 : (i 0).val = I0) (hi1 : (i 1).val = I1 * 512 + r.val) (hi2 : (i 2).val = e.val) :
    blockFn X0 X1 X2 X3 X4 X5 X6 r e = finalOf A0 A1 A2 A3 A4 A5 A6 i := by
  unfold blockFn finalOf
  have he : (⟨(i 2).val, (i 2).isLt⟩ : Fin 256) = e := Fin.ext hi2
  rw [he]
  refine Cert.RowNet.pooled_congr (fun o ch => h1 ch o) h2 (fun o ch => h3 ch o) h4 (fun o ch => h5 ch o) h6 (fun k ch => ?_) e
  rw [h0]
  refine congrArg A0 (funext fun a => Fin.ext ?_)
  have hr := r.isLt
  have hk := k.isLt
  match a with
  | ⟨0, _⟩ => show I0 = (i 0).val; omega
  | ⟨1, _⟩ => show I1 * 16384 + (32 * r.val + k.val) = 32 * (i 1).val + k.val; omega
  | ⟨2, _⟩ => rfl

/-- The output array after the run, over the arrays the region finds. -/
def finalFn (c : Dev nD) : S8x2048x256.Idx → EReal :=
  finalOf (lArr m c) (w1Arr m c) (b1Arr m c) (w2Arr m c) (b2Arr m c) (w3Arr m c) (b3Arr m c)

/-- The input blocks of a point, at their literal types. -/
abbrev blk0 (c : Dev nD) (t : Fin cfg0.N) : Vec Ideal S1x16384x3 .bf16 := iblk m c 0 t
abbrev blk1 (c : Dev nD) (t : Fin cfg0.N) : Vec Ideal S3x64 .f32 := iblk m c 1 t
abbrev blk2 (c : Dev nD) (t : Fin cfg0.N) : Vec Ideal S1x64 .f32 := iblk m c 2 t
abbrev blk3 (c : Dev nD) (t : Fin cfg0.N) : Vec Ideal S64x128 .f32 := iblk m c 3 t
abbrev blk4 (c : Dev nD) (t : Fin cfg0.N) : Vec Ideal S1x128 .f32 := iblk m c 4 t
abbrev blk5 (c : Dev nD) (t : Fin cfg0.N) : Vec Ideal S128x256 .f32 := iblk m c 5 t
abbrev blk6 (c : Dev nD) (t : Fin cfg0.N) : Vec Ideal S1x256 .f32 := iblk m c 6 t

/-! ## A point's input blocks are parts of the arrays the region finds

A block read through its window is the array's entry under the block's index. The weight windows always sit at block index 0 (their one
block is the whole array); the offset window's block index follows the output's: batch `b`, and rows `16384 q ..` where the output has
rows `512 q ..`. -/

/-- Reading the offset window's block of the offset array: the array's entry under the block's index. -/
theorem read_blk0 (c : Dev nD) (t : Fin cfg0.N) (x : ((cfg0.win 0).xblock (grid0.coords t)).Idx) :
    ((cfg0.win 0).blk t).view.read (Elt Ideal) (V m c main_v7) x = V m c main_v7 (((cfg0.win 0).blk t).view.emb x) := by
  rw [View.read_apply]
  exact cast_eq _ _

theorem blk0_apply (c : Dev nD) (t : Fin cfg0.N) (hI0 : win0_7.index t (0 : Fin 3) < 8) (hI1 : win0_7.index t (1 : Fin 3) < 4) (row : Fin 16384) (ch : Fin 3) :
    blk0 m c t (ix3 (0 : Fin 1) row ch)
      = lArr m c (ix3 (⟨win0_7.index t (0 : Fin 3), hI0⟩ : Fin 8)
          (⟨win0_7.index t (1 : Fin 3) * 16384 + row.val, by have := row.isLt; omega⟩ : Fin 65536) ch) := by
  obtain ⟨f0, f1, f2, f3, f4, f5, g10, g11, g20, g21, g30, g31, g40, g41, g50, g51, g60, g61⟩ := idx_facts t
  show ((cfg0.win 0).blk t).view.read (Elt Ideal) (V m c main_v7) (ix3 (0 : Fin 1) row ch) = _
  rw [read_blk0]
  refine congrArg (V m c main_v7) (funext fun a => Fin.ext ?_)
  have hrow := row.isLt
  match a with
  | ⟨0, _⟩ => show win0_0.index t (0 : Fin 3) * 1 + 1 * 0 = win0_7.index t (0 : Fin 3); omega
  | ⟨1, _⟩ => show win0_0.index t (1 : Fin 3) * 16384 + 1 * row.val = win0_7.index t (1 : Fin 3) * 16384 + row.val; omega
  | ⟨2, _⟩ => show win0_0.index t (2 : Fin 3) * 3 + 1 * ch.val = ch.val; omega

theorem read_blk1 (c : Dev nD) (t : Fin cfg0.N) (x : ((cfg0.win 1).xblock (grid0.coords t)).Idx) :
    ((cfg0.win 1).blk t).view.read (Elt Ideal) (V m c main_v8) x = V m c main_v8 (((cfg0.win 1).blk t).view.emb x) := by
  rw [View.read_apply]
  exact cast_eq _ _

theorem blk1_apply (c : Dev nD) (t : Fin cfg0.N) (ch : Fin 3) (o : Fin 64) : blk1 m c t (ix2 ch o) = w1Arr m c (ix2 ch o) := by
  obtain ⟨f0, f1, f2, f3, f4, f5, g10, g11, g20, g21, g30, g31, g40, g41, g50, g51, g60, g61⟩ := idx_facts t
  show ((cfg0.win 1).blk t).view.read (Elt Ideal) (V m c main_v8) (ix2 ch o) = _
  rw [read_blk1]
  refine congrArg (V m c main_v8) (funext fun a => Fin.ext ?_)
  match a with
  | ⟨0, _⟩ => show win0_1.index t (0 : Fin 2) * 3 + 1 * ch.val = ch.val; omega
  | ⟨1, _⟩ => show win0_1.index t (1 : Fin 2) * 64 + 1 * o.val = o.val; omega

theorem read_blk2 (c : Dev nD) (t : Fin cfg0.N) (x : ((cfg0.win 2).xblock (grid0.coords t)).Idx) :
    ((cfg0.win 2).blk t).view.read (Elt Ideal) (V m c main_v11) x = V m c main_v11 (((cfg0.win 2).blk t).view.emb x) := by
  rw [View.read_apply]
  exact cast_eq _ _

theorem blk2_apply (c : Dev nD) (t : Fin cfg0.N) (o : Fin 64) : blk2 m c t (ix2 (0 : Fin 1) o) = b1Arr m c (ix2 (0 : Fin 1) o) := by
  obtain ⟨f0, f1, f2, f3, f4, f5, g10, g11, g20, g21, g30, g31, g40, g41, g50, g51, g60, g61⟩ := idx_facts t
  show ((cfg0.win 2).blk t).view.read (Elt Ideal) (V m c main_v11) (ix2 (0 : Fin 1) o) = _
  rw [read_blk2]
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 64 + 1 * o.val = o.val; omega

theorem read_blk3 (c : Dev nD) (t : Fin cfg0.N) (x : ((cfg0.win 3).xblock (grid0.coords t)).Idx) :
    ((cfg0.win 3).blk t).view.read (Elt Ideal) (V m c main_v9) x = V m c main_v9 (((cfg0.win 3).blk t).view.emb x) := by
  rw [View.read_apply]
  exact cast_eq _ _

theorem blk3_apply (c : Dev nD) (t : Fin cfg0.N) (ch : Fin 64) (o : Fin 128) : blk3 m c t (ix2 ch o) = w2Arr m c (ix2 ch o) := by
  obtain ⟨f0, f1, f2, f3, f4, f5, g10, g11, g20, g21, g30, g31, g40, g41, g50, g51, g60, g61⟩ := idx_facts t
  show ((cfg0.win 3).blk t).view.read (Elt Ideal) (V m c main_v9) (ix2 ch o) = _
  rw [read_blk3]
  refine congrArg (V m c main_v9) (funext fun a => Fin.ext ?_)
  match a with
  | ⟨0, _⟩ => show win0_3.index t (0 : Fin 2) * 64 + 1 * ch.val = ch.val; omega
  | ⟨1, _⟩ => show win0_3.index t (1 : Fin 2) * 128 + 1 * o.val = o.val; omega

theorem read_blk4 (c : Dev nD) (t : Fin cfg0.N) (x : ((cfg0.win 4).xblock (grid0.coords t)).Idx) :
    ((cfg0.win 4).blk t).view.read (Elt Ideal) (V m c main_v12) x = V m c main_v12 (((cfg0.win 4).blk t).view.emb x) := by
  rw [View.read_apply]
  exact cast_eq _ _

theorem blk4_apply (c : Dev nD) (t : Fin cfg0.N) (o : Fin 128) : blk4 m c t (ix2 (0 : Fin 1) o) = b2Arr m c (ix2 (0 : Fin 1) o) := by
  obtain ⟨f0, f1, f2, f3, f4, f5, g10, g11, g20, g21, g30, g31, g40, g41, g50, g51, g60, g61⟩ := idx_facts t
  show ((cfg0.win 4).blk t).view.read (Elt Ideal) (V m c main_v12) (ix2 (0 : Fin 1) o) = _
  rw [read_blk4]
  refine congrArg (V m c main_v12) (funext fun a => Fin.ext ?_)
  match a with
  | ⟨0, _⟩ => show win0_4.index t (0 : Fin 2) * 1 + 1 * 0 = 0; omega
  | ⟨1, _⟩ => show win0_4.index t (1 : Fin 2) * 128 + 1 * o.val = o.val; omega

theorem read_blk5 (c : Dev nD) (t : Fin cfg0.N) (x : ((cfg0.win 5).xblock (grid0.coords t)).Idx) :
    ((cfg0.win 5).blk t).view.read (Elt Ideal) (V m c main_v10) x = V m c main_v10 (((cfg0.win 5).blk t).view.emb x) := by
  rw [View.read_apply]
  exact cast_eq _ _

theorem blk5_apply (c : Dev nD) (t : Fin cfg0.N) (ch : Fin 128) (o : Fin 256) : blk5 m c t (ix2 ch o) = w3Arr m c (ix2 ch o) := by
  obtain ⟨f0, f1, f2, f3, f4, f5, g10, g11, g20, g21, g30, g31, g40, g41, g50, g51, g60, g61⟩ := idx_facts t
  show ((cfg0.win 5).blk t).view.read (Elt Ideal) (V m c main_v10) (ix2 ch o) = _
  rw [read_blk5]
  refine congrArg (V m c main_v10) (funext fun a => Fin.ext ?_)
  match a with
  | ⟨0, _⟩ => show win0_5.index t (0 : Fin 2) * 128 + 1 * ch.val = ch.val; omega
  | ⟨1, _⟩ => show win0_5.index t (1 : Fin 2) * 256 + 1 * o.val = o.val; omega

theorem read_blk6 (c : Dev nD) (t : Fin cfg0.N) (x : ((cfg0.win 6).xblock (grid0.coords t)).Idx) :
    ((cfg0.win 6).blk t).view.read (Elt Ideal) (V m c main_v13) x = V m c main_v13 (((cfg0.win 6).blk t).view.emb x) := by
  rw [View.read_apply]
  exact cast_eq _ _

theorem blk6_apply (c : Dev nD) (t : Fin cfg0.N) (o : Fin 256) : blk6 m c t (ix2 (0 : Fin 1) o) = b3Arr m c (ix2 (0 : Fin 1) o) := by
  obtain ⟨f0, f1, f2, f3, f4, f5, g10, g11, g20, g21, g30, g31, g40, g41, g50, g51, g60, g61⟩ := idx_facts t
  show ((cfg0.win 6).blk t).view.read (Elt Ideal) (V m c main_v13) (ix2 (0 : Fin 1) o) = _
  rw [read_blk6]
  refine congrArg (V m c main_v13) (funext fun a => Fin.ext ?_)
  match a with
  | ⟨0, _⟩ => show win0_6.index t (0 : Fin 2) * 1 + 1 * 0 = 0; omega
  | ⟨1, _⟩ => show win0_6.index t (1 : Fin 2) * 256 + 1 * o.val = o.val; omega

/-- Where the output block's index `j` sits in the output array. -/
theorem out_emb (t : Fin cfg0.N) (j : ((cfg0.win 7).xblock (grid0.coords t)).Idx) (i : S8x2048x256.Idx)
    (hi : i = ((cfg0.win 7).blk t).view.emb j) :
    (i 0).val = win0_7.index t (0 : Fin 3) ∧ (i 1).val = win0_7.index t (1 : Fin 3) * 512 + (j 1).val ∧ (i 2).val = (j 2).val := by
  obtain ⟨f0, f1, f2, f3, f4, f5, g10, g11, g20, g21, g30, g31, g40, g41, g50, g51, g60, g61⟩ := idx_facts t
  subst hi
  refine ⟨?_, ?_, ?_⟩
  · show win0_7.index t (0 : Fin 3) * 1 + 1 * (j 0).val = win0_7.index t (0 : Fin 3); have h : (j 0).val < 1 := (j 0).isLt; omega
  · show win0_7.index t (1 : Fin 3) * 512 + 1 * (j 1).val = win0_7.index t (1 : Fin 3) * 512 + (j 1).val; omega
  · show win0_7.index t (2 : Fin 3) * 256 + 1 * (j 2).val = (j 2).val; omega

end Cert.KernelIdeal.ArrayValue
end
-- ==== Proof.KernelFinal.lean ====
/-
  The output array after the run. What each grid point writes back is its block of one function of the arrays the region finds
  (`finalFn`); the 32 blocks tile the output array; so the array ends holding that function.
-/
import proofs.«417574_j5583457485374_3_alg».proof.Proof.KernelArray

set_option maxRecDepth 16384

noncomputable section

namespace Cert.KernelIdeal.ArrayValue

open Idealize.ShloMosaic Idealize.ShloMosaic.TcCoe Idealize.SL.Sem
open Idealize.ShloMosaic.Pipeline (Dat)
open Cert.KernelIdeal Cert.KernelIdeal.Gen Idealize.ShloMosaic.ValueIdx Cert.KernelIdeal.BlockValue

variable (m : (ℓ : Loc nD τ sig) → Buf (Elt Ideal) ℓ) (ρ : Dev nD → PrngReg)

attribute [local irreducible] out0_A_7

/-- WHAT POINT `t` WRITES BACK is block `t` of `finalFn`: the block function of the point's input blocks, each of which is a part of its
    array, read at the place the output block's index has in the output array. -/
theorem flushed_eq (c : Dev nD) (t : Fin cfg0.N) :
    (dats m 0 c).flushed 7 t = ((cfg0.win 7).blk t).view.read (Elt Ideal) (finalFn m c) := by
  rw [Cert.KernelIdeal.Value.flushed7_A]
  funext j
  have hj1 : (j 1).val < 512 := (j 1).isLt
  have hj2 : (j 2).val < 256 := (j 2).isLt
  have hI0 : win0_7.index t (0 : Fin 3) < 8 := (idx_facts t).2.2.2.2.1
  have hI1 : win0_7.index t (1 : Fin 3) < 4 := (idx_facts t).2.2.2.2.2.1
  obtain ⟨e0, e1, e2⟩ := out_emb t j (((cfg0.win 7).blk t).view.emb j) rfl
  refine (out_apply_idx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (blk0 m c t) (blk1 m c t) (blk2 m c t) (blk3 m c t) (blk4 m c t) (blk5 m c t) (blk6 m c t) ((cfg0.win 7).xinj (grid0.coords t) j)).trans ?_
  rw [View.read_apply]
  refine Eq.trans ?_ (cast_eq _ _).symm
  exact block_to_final (blk0 m c t) (blk1 m c t) (blk2 m c t) (blk3 m c t) (blk4 m c t) (blk5 m c t) (blk6 m c t)
    (lArr m c) (w1Arr m c) (b1Arr m c) (w2Arr m c) (b2Arr m c) (w3Arr m c) (b3Arr m c)
    (win0_7.index t (0 : Fin 3)) (win0_7.index t (1 : Fin 3)) hI0 hI1
    (blk0_apply m c t hI0 hI1) (blk1_apply m c t) (blk2_apply m c t) (blk3_apply m c t) (blk4_apply m c t) (blk5_apply m c t) (blk6_apply m c t)
    ⟨(j 1).val, hj1⟩ ⟨(j 2).val, hj2⟩ (((cfg0.win 7).blk t).view.emb j) e0 e1 e2

/-- Every index of the output array is in some point's block: the blocks tile the array. -/
theorem cover (i : S8x2048x256.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 256 ≤ (i 2).val ∧ (i 2).val < win0_7.index t (2 : Fin 3) * 256 + 256; omega

/-- THE OUTPUT ARRAY after the run. -/
theorem final (c : Dev nD) : (dats m 0 c).arrAt 7 cfg0.N = finalFn m c :=
  (dats m 0 c).arrAt_eq_of_cover 7 (finalFn m c) (fun t _ => flushed_eq m c t) (cover)

/-- The kernel's run, read: the result array ends at `finalFn` of the arrays the region finds, the arguments unchanged. -/
theorem run : θ_run defs (onTc (τ := τ) (main (F := Ideal))) ⟨m, fun _ => 0, ρ⟩ fun r => ∀ c : Dev nD,
      r.2.mem ((c : Thread nD τ).loc main_v14) = finalFn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.ArrayValue
end
-- ==== Proof.HostValue.lean ====
/-
  The kernel program's host operations before its region, read at an index.

  The region's first operand is the centre-subtracted neighbour array, reshaped from `[8, 2048, 32, 3]` to
  `[8, 65536, 3]` (row `32 * mm + k` of batch `b` is neighbour `k` of centre `mm`) and converted to sixteen bits, which on
  the extended reals is the identity. The subtraction and everything before it are the same operations, in the same order,
  as the reference program's: the two chains are compared once, for any float values, and only the comparison's
  conclusion is used on the extended reals. The weight matrices reach the region transposed and the bias vectors with a
  unit axis in front.
-/
import proofs.«417574_j5583457485374_3_alg».proof.Proof.Gen.KernelIdeal.Frame
import proofs.«417574_j5583457485374_3_alg».proof.Proof.RefRead
import Idealize.ShloMosaic.Lib.StableHlo.Run
import Idealize.ShloMosaic.Lib.Pipeline.Value

noncomputable section

namespace Cert.KernelIdeal.HostValue

open Idealize.ShloMosaic Idealize.ShloMosaic.ValueIdx Idealize.SL.Sem Cert.KernelIdeal Cert.KernelIdeal.Gen
open Idealize.ShloMosaic.TcCoe

/-! ## The buffers as the region finds them, as terms of the launch contents (any float values) -/

section Terms

variable {F : FTy → Type} [FloatOps F] (m : (ℓ : Loc nD τ sig) → Buf (Elt F) ℓ)

/-- The neighbour operand: the reference's centre-subtracted array, reshaped and converted. -/
theorem V7_eq (c : Dev nD) :
    V m c main_v7 = (truncf .bf16 (shapeCast S8x65536x3 (Cert.ReferenceIdeal.ReadValue.val_main_v5 (F := F) (m ((c : Thread nD τ).loc main_arg0)) (m ((c : Thread nD τ).loc main_arg1)) (m ((c : Thread nD τ).loc main_arg2))) shapeCasts_S8x2048x32x3_S8x65536x3) bitsLt_bf16_f32 : (⟨S8x65536x3, .bf16⟩ : BufTy).Contents (Elt F)) := by
  dsimp only [Gen.V]
  simp only [Gen.hostOps0, Gen.hostOps0_1, Gen.hostOps0_2, List.flatten_cons, List.flatten_nil, List.append_nil, List.cons_append, List.nil_append]
  after_results_simp <;> (try simp only [StableHlo.TRef.ofBuf, StableHlo.TRef.toBuf, cast_eq]) <;> rfl

/-- The three weight matrices, transposed. -/
theorem V8_eq (c : Dev nD) :
    V m c main_v8 = (transpose S3x64 [1, 0] (m ((c : Thread nD τ).loc main_arg3)) transposes_S64x3_S3x64_1_0 : (⟨S3x64, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

theorem V9_eq (c : Dev nD) :
    V m c main_v9 = (transpose S64x128 [1, 0] (m ((c : Thread nD τ).loc main_arg5)) transposes_S128x64_S64x128_1_0 : (⟨S64x128, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

theorem V10_eq (c : Dev nD) :
    V m c main_v10 = (transpose S128x256 [1, 0] (m ((c : Thread nD τ).loc main_arg7)) transposes_S256x128_S128x256_1_0 : (⟨S128x256, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

/-- The three bias vectors, as one-row matrices. -/
theorem V11_eq (c : Dev nD) :
    V m c main_v11 = (shapeCast S1x64 (m ((c : Thread nD τ).loc main_arg4)) shapeCasts_S64_S1x64 : (⟨S1x64, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

theorem V12_eq (c : Dev nD) :
    V m c main_v12 = (shapeCast S1x128 (m ((c : Thread nD τ).loc main_arg6)) shapeCasts_S128_S1x128 : (⟨S1x128, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

theorem V13_eq (c : Dev nD) :
    V m c main_v13 = (shapeCast S1x256 (m ((c : Thread nD τ).loc main_arg8)) shapeCasts_S256_S1x256 : (⟨S1x256, .f32⟩ : BufTy).Contents (Elt F)) := by
  dsimp only [Gen.V]
  simp only [Gen.hostOps0, Gen.hostOps0_1, Gen.hostOps0_2, List.flatten_cons, List.flatten_nil, List.append_nil, List.cons_append, List.nil_append]
  after_results <;> rfl

end Terms

/-! ## Read at an index, on the extended reals -/

variable (m : (ℓ : Loc nD τ sig) → Buf (Elt Ideal) ℓ)

/-- Row `32 * mm + k` of batch `b` of the region's neighbour operand is neighbour `k` of centre `mm`, centre subtracted. -/
theorem local_apply (c : Dev nD) (b : Fin 8) (mm : Fin 2048) (k : Fin 32) (ch : Fin 3) :
    (V m c main_v7 : S8x65536x3.Idx → EReal) (ix3 b (⟨32 * mm.val + k.val, by have := mm.isLt; have := k.isLt; omega⟩ : Fin 65536) ch)
      = Cert.ReferenceIdeal.ReadValue.val_main_v5 (F := Ideal) (m ((c : Thread nD τ).loc main_arg0)) (m ((c : Thread nD τ).loc main_arg1)) (m ((c : Thread nD τ).loc main_arg2)) (ix4 b mm k ch) := by
  refine (congrFun (V7_eq m c) _).trans ?_
  generalize Cert.ReferenceIdeal.ReadValue.val_main_v5 (F := Ideal) (m ((c : Thread nD τ).loc main_arg0)) (m ((c : Thread nD τ).loc main_arg1)) (m ((c : Thread nD τ).loc main_arg2)) = y
  refine (truncf_apply _ bitsLt_bf16_f32 _).trans ?_
  refine shapeCast_apply y shapeCasts_S8x2048x32x3_S8x65536x3 _ (ix4 b mm k ch) ?_
  rw [Shape.rowMajor_val_four, Shape.rowMajor_val_three]
  have hb := b.isLt; have hm := mm.isLt; have hk := k.isLt; have hc := ch.isLt
  show ((b.val * 2048 + mm.val) * 32 + k.val) * 3 + ch.val = (b.val * 65536 + (32 * mm.val + k.val)) * 3 + ch.val
  omega

theorem w1_apply (c : Dev nD) (i : Fin 3) (o : Fin 64) : (V m c main_v8 : S3x64.Idx → EReal) (ix2 i o) = m ((c : Thread nD τ).loc main_arg3) (ix2 o i) :=
  (congrFun (V8_eq m c) _).trans
    (transpose_apply _ _ transposes_S64x3_S3x64_1_0 _ _ fun a => match a with | ⟨0, _⟩ => rfl | ⟨1, _⟩ => rfl)

theorem w2_apply (c : Dev nD) (i : Fin 64) (o : Fin 128) : (V m c main_v9 : S64x128.Idx → EReal) (ix2 i o) = m ((c : Thread nD τ).loc main_arg5) (ix2 o i) :=
  (congrFun (V9_eq m c) _).trans
    (transpose_apply _ _ transposes_S128x64_S64x128_1_0 _ _ fun a => match a with | ⟨0, _⟩ => rfl | ⟨1, _⟩ => rfl)

theorem w3_apply (c : Dev nD) (i : Fin 128) (o : Fin 256) : (V m c main_v10 : S128x256.Idx → EReal) (ix2 i o) = m ((c : Thread nD τ).loc main_arg7) (ix2 o i) :=
  (congrFun (V10_eq m c) _).trans
    (transpose_apply _ _ transposes_S256x128_S128x256_1_0 _ _ fun a => match a with | ⟨0, _⟩ => rfl | ⟨1, _⟩ => rfl)

theorem b1_apply (c : Dev nD) (o : Fin 64) : (V m c main_v11 : S1x64.Idx → EReal) (ix2 (0 : Fin 1) o) = m ((c : Thread nD τ).loc main_arg4) (ix1 o) :=
  (congrFun (V11_eq m c) _).trans
    (shapeCast_apply _ shapeCasts_S64_S1x64 _ (ix1 o) (by
      rw [Shape.rowMajor_val_one, Shape.rowMajor_val_two]
      show o.val = (0 : Fin 1).val * 64 + o.val
      simp))

theorem b2_apply (c : Dev nD) (o : Fin 128) : (V m c main_v12 : S1x128.Idx → EReal) (ix2 (0 : Fin 1) o) = m ((c : Thread nD τ).loc main_arg6) (ix1 o) :=
  (congrFun (V12_eq m c) _).trans
    (shapeCast_apply _ shapeCasts_S128_S1x128 _ (ix1 o) (by
      rw [Shape.rowMajor_val_one, Shape.rowMajor_val_two]
      show o.val = (0 : Fin 1).val * 128 + o.val
      simp))

theorem b3_apply (c : Dev nD) (o : Fin 256) : (V m c main_v13 : S1x256.Idx → EReal) (ix2 (0 : Fin 1) o) = m ((c : Thread nD τ).loc main_arg8) (ix1 o) :=
  (congrFun (V13_eq m c) _).trans
    (shapeCast_apply _ shapeCasts_S256_S1x256 _ (ix1 o) (by
      rw [Shape.rowMajor_val_one, Shape.rowMajor_val_two]
      show o.val = (0 : Fin 1).val * 256 + o.val
      simp))

end Cert.KernelIdeal.HostValue

end
-- ==== Proof.RefValue.lean ====
/-
  The reference program's result, read at an index: channel `e` of centre `(b, mm)` is the maximum, over the centre's
  32 neighbour rows, of the three-layer pointwise network applied to the row of the centre-subtracted neighbour array.

  Each layer is read at `(b, mm, k, o)`: the contraction is the sum over the previous layer's coordinates at the same
  `(b, mm, k)`, the bias is the weight vector's entry `o` broadcast over the leading axes, and the rectifier is the
  maximum with the float zero's word. The last stage folds the maximum over axis 2 from the word of minus infinity;
  the index over `(b, mm, e)` with `k` inserted on that axis is `(b, mm, k, e)`.
-/
import proofs.«417574_j5583457485374_3_alg».proof.Proof.RefRead
import proofs.«417574_j5583457485374_3_alg».proof.Proof.RowNet

noncomputable section

namespace Cert.ReferenceIdeal.RefValue

open Idealize.ShloMosaic Idealize.ShloMosaic.ValueIdx Cert.ReferenceIdeal Cert.ReferenceIdeal.ReadValue

/-! ## The index maps at `(b, mm, k, o)` -/

theorem lidx6_at (b : Fin 8) (mm : Fin 2048) (k : Fin 32) (o : Fin 64) (c : Fin 3) :
    lidx_main_v6 (ix4 b mm k o) c = ix4 b mm k c :=
  funext fun a => Fin.ext (by match a with | ⟨0, _⟩ => rfl | ⟨1, _⟩ => rfl | ⟨2, _⟩ => rfl | ⟨3, _⟩ => rfl)

theorem ridx6_at (b : Fin 8) (mm : Fin 2048) (k : Fin 32) (o : Fin 64) (c : Fin 3) :
    ridx_main_v6 (ix4 b mm k o) c = ix2 o c :=
  funext fun a => Fin.ext (by match a with | ⟨0, _⟩ => rfl | ⟨1, _⟩ => rfl)

theorem bidx8_at (b : Fin 8) (mm : Fin 2048) (k : Fin 32) (o : Fin 64) :
    idx_main_v7 (idx_main_v8 (ix4 b mm k o)) = ix1 o :=
  funext fun a => Fin.ext (by match a with | ⟨0, _⟩ => rfl)

theorem lidx11_at (b : Fin 8) (mm : Fin 2048) (k : Fin 32) (o : Fin 128) (c : Fin 64) :
    lidx_main_v11 (ix4 b mm k o) c = ix4 b mm k c :=
  funext fun a => Fin.ext (by match a with | ⟨0, _⟩ => rfl | ⟨1, _⟩ => rfl | ⟨2, _⟩ => rfl | ⟨3, _⟩ => rfl)

theorem ridx11_at (b : Fin 8) (mm : Fin 2048) (k : Fin 32) (o : Fin 128) (c : Fin 64) :
    ridx_main_v11 (ix4 b mm k o) c = ix2 o c :=
  funext fun a => Fin.ext (by match a with | ⟨0, _⟩ => rfl | ⟨1, _⟩ => rfl)

theorem bidx13_at (b : Fin 8) (mm : Fin 2048) (k : Fin 32) (o : Fin 128) :
    idx_main_v12 (idx_main_v13 (ix4 b mm k o)) = ix1 o :=
  funext fun a => Fin.ext (by match a with | ⟨0, _⟩ => rfl)

theorem lidx16_at (b : Fin 8) (mm : Fin 2048) (k : Fin 32) (o : Fin 256) (c : Fin 128) :
    lidx_main_v16 (ix4 b mm k o) c = ix4 b mm k c :=
  funext fun a => Fin.ext (by match a with | ⟨0, _⟩ => rfl | ⟨1, _⟩ => rfl | ⟨2, _⟩ => rfl | ⟨3, _⟩ => rfl)

theorem ridx16_at (b : Fin 8) (mm : Fin 2048) (k : Fin 32) (o : Fin 256) (c : Fin 128) :
    ridx_main_v16 (ix4 b mm k o) c = ix2 o c :=
  funext fun a => Fin.ext (by match a with | ⟨0, _⟩ => rfl | ⟨1, _⟩ => rfl)

theorem bidx18_at (b : Fin 8) (mm : Fin 2048) (k : Fin 32) (o : Fin 256) :
    idx_main_v17 (idx_main_v18 (ix4 b mm k o)) = ix1 o :=
  funext fun a => Fin.ext (by match a with | ⟨0, _⟩ => rfl)

/-! ## The layers -/

/-- The first layer at `(b, mm, k, o)`: the rectified affine image of the neighbour's offset row. -/
theorem layer1_apply (x0 : (⟨S8x16384x3, .f32⟩ : BufTy).Contents (Elt Ideal)) (x1 : (⟨S8x2048x3, .f32⟩ : BufTy).Contents (Elt Ideal)) (x2 : (⟨S8x2048x32, .i32⟩ : BufTy).Contents (Elt Ideal)) (x3 : (⟨S64x3, .f32⟩ : BufTy).Contents (Elt Ideal)) (x4 : (⟨S64, .f32⟩ : BufTy).Contents (Elt Ideal)) (b : Fin 8) (mm : Fin 2048) (k : Fin 32) (o : Fin 64) :
    val_main_v10 (F := Ideal) x0 x1 x2 x3 x4 (ix4 b mm k o)
      = Cert.RowNet.rect (Cert.RowNet.affine (fun o c => x3 (ix2 o c)) (fun o => x4 (ix1 o))
          (fun c => val_main_v5 (F := Ideal) x0 x1 x2 (ix4 b mm k c))) o := by
  have hsum : val_main_v6 (F := Ideal) x0 x1 x2 x3 (ix4 b mm k o)
      = ∑ c : Fin 3, val_main_v5 (F := Ideal) x0 x1 x2 (ix4 b mm k c) * x3 (ix2 o c) := by
    refine (val_main_v6_apply x0 x1 x2 x3 (ix4 b mm k o)).trans ?_
    refine Finset.sum_congr rfl fun c _ => ?_
    rw [lidx6_at, ridx6_at]
  have hbias : val_main_v8 (F := Ideal) x4 (ix4 b mm k o) = x4 (ix1 o) :=
    (val_main_v8_apply x4 _).trans ((val_main_v7_apply x4 _).trans (congrArg x4 (bidx8_at b mm k o)))
  have hzero : val_main_call1_v0 (F := Ideal) (ix4 b mm k o) = Cert.RowNet.floorWord :=
    (val_main_call1_v0_apply _).trans (val_main_call1_cst_apply _)
  refine (val_main_v10_apply x0 x1 x2 x3 x4 (ix4 b mm k o)).trans ?_
  rw [val_main_v9_apply, hsum, hbias, hzero]
  rfl

/-- The second layer at `(b, mm, k, o)`. -/
theorem layer2_apply (x0 : (⟨S8x16384x3, .f32⟩ : BufTy).Contents (Elt Ideal)) (x1 : (⟨S8x2048x3, .f32⟩ : BufTy).Contents (Elt Ideal)) (x2 : (⟨S8x2048x32, .i32⟩ : BufTy).Contents (Elt Ideal)) (x3 : (⟨S64x3, .f32⟩ : BufTy).Contents (Elt Ideal)) (x4 : (⟨S64, .f32⟩ : BufTy).Contents (Elt Ideal)) (x5 : (⟨S128x64, .f32⟩ : BufTy).Contents (Elt Ideal)) (x6 : (⟨S128, .f32⟩ : BufTy).Contents (Elt Ideal)) (b : Fin 8) (mm : Fin 2048) (k : Fin 32) (o : Fin 128) :
    val_main_v15 (F := Ideal) x0 x1 x2 x3 x4 x5 x6 (ix4 b mm k o)
      = Cert.RowNet.rect (Cert.RowNet.affine (fun o c => x5 (ix2 o c)) (fun o => x6 (ix1 o))
          (Cert.RowNet.rect (Cert.RowNet.affine (fun o c => x3 (ix2 o c)) (fun o => x4 (ix1 o))
            (fun c => val_main_v5 (F := Ideal) x0 x1 x2 (ix4 b mm k c))))) o := by
  have hsum : val_main_v11 (F := Ideal) x0 x1 x2 x3 x4 x5 (ix4 b mm k o)
      = ∑ c : Fin 64, Cert.RowNet.rect (Cert.RowNet.affine (fun o c => x3 (ix2 o c)) (fun o => x4 (ix1 o))
          (fun c => val_main_v5 (F := Ideal) x0 x1 x2 (ix4 b mm k c))) c * x5 (ix2 o c) := by
    refine (val_main_v11_apply x0 x1 x2 x3 x4 x5 (ix4 b mm k o)).trans ?_
    refine Finset.sum_congr rfl fun c _ => ?_
    rw [lidx11_at, ridx11_at, layer1_apply]
  have hbias : val_main_v13 (F := Ideal) x6 (ix4 b mm k o) = x6 (ix1 o) :=
    (val_main_v13_apply x6 _).trans ((val_main_v12_apply x6 _).trans (congrArg x6 (bidx13_at b mm k o)))
  have hzero : val_main_call2_v0 (F := Ideal) (ix4 b mm k o) = Cert.RowNet.floorWord :=
    (val_main_call2_v0_apply _).trans (val_main_call2_cst_apply _)
  refine (val_main_v15_apply x0 x1 x2 x3 x4 x5 x6 (ix4 b mm k o)).trans ?_
  rw [val_main_v14_apply, hsum, hbias, hzero]
  rfl

/-- The third layer at `(b, mm, k, e)`: the network's channel `e` on the neighbour's offset row. -/
theorem layer3_apply (x0 : (⟨S8x16384x3, .f32⟩ : BufTy).Contents (Elt Ideal)) (x1 : (⟨S8x2048x3, .f32⟩ : BufTy).Contents (Elt Ideal)) (x2 : (⟨S8x2048x32, .i32⟩ : BufTy).Contents (Elt Ideal)) (x3 : (⟨S64x3, .f32⟩ : BufTy).Contents (Elt Ideal)) (x4 : (⟨S64, .f32⟩ : BufTy).Contents (Elt Ideal)) (x5 : (⟨S128x64, .f32⟩ : BufTy).Contents (Elt Ideal)) (x6 : (⟨S128, .f32⟩ : BufTy).Contents (Elt Ideal)) (x7 : (⟨S256x128, .f32⟩ : BufTy).Contents (Elt Ideal)) (x8 : (⟨S256, .f32⟩ : BufTy).Contents (Elt Ideal)) (b : Fin 8) (mm : Fin 2048) (k : Fin 32) (e : Fin 256) :
    val_main_v19 (F := Ideal) x0 x1 x2 x3 x4 x5 x6 x7 x8 (ix4 b mm k e)
      = Cert.RowNet.net (fun o c => x3 (ix2 o c)) (fun o => x4 (ix1 o)) (fun o c => x5 (ix2 o c)) (fun o => x6 (ix1 o))
          (fun o c => x7 (ix2 o c)) (fun o => x8 (ix1 o)) (fun c => val_main_v5 (F := Ideal) x0 x1 x2 (ix4 b mm k c)) e := by
  have hsum : val_main_v16 (F := Ideal) x0 x1 x2 x3 x4 x5 x6 x7 (ix4 b mm k e)
      = ∑ c : Fin 128, Cert.RowNet.rect (Cert.RowNet.affine (fun o c => x5 (ix2 o c)) (fun o => x6 (ix1 o))
          (Cert.RowNet.rect (Cert.RowNet.affine (fun o c => x3 (ix2 o c)) (fun o => x4 (ix1 o))
            (fun c => val_main_v5 (F := Ideal) x0 x1 x2 (ix4 b mm k c))))) c * x7 (ix2 e c) := by
    refine (val_main_v16_apply x0 x1 x2 x3 x4 x5 x6 x7 (ix4 b mm k e)).trans ?_
    refine Finset.sum_congr rfl fun c _ => ?_
    rw [lidx16_at, ridx16_at, layer2_apply]
  have hbias : val_main_v18 (F := Ideal) x8 (ix4 b mm k e) = x8 (ix1 e) :=
    (val_main_v18_apply x8 _).trans ((val_main_v17_apply x8 _).trans (congrArg x8 (bidx18_at b mm k e)))
  refine (val_main_v19_apply x0 x1 x2 x3 x4 x5 x6 x7 x8 (ix4 b mm k e)).trans ?_
  rw [hsum, hbias]
  rfl

/-! ## The maximum over the neighbours -/

/-- The index over `(b, mm, e)` with `k` inserted on axis 2 is `(b, mm, k, e)`. -/
theorem lift_at (h : S8x2048x32x256.Reduces [2] S8x2048x256) (b : Fin 8) (mm : Fin 2048) (e : Fin 256) (k : Fin 32) :
    h.lift (ix3 b mm e) k = ix4 b mm k e :=
  funext fun a => Fin.ext (by match a with | ⟨0, _⟩ => rfl | ⟨1, _⟩ => rfl | ⟨2, _⟩ => rfl | ⟨3, _⟩ => rfl)

/-- The reference's result at `(b, mm, e)`: the pooled maximum of the network over the centre's neighbour rows. -/
theorem result_apply (x0 : (⟨S8x16384x3, .f32⟩ : BufTy).Contents (Elt Ideal)) (x1 : (⟨S8x2048x3, .f32⟩ : BufTy).Contents (Elt Ideal)) (x2 : (⟨S8x2048x32, .i32⟩ : BufTy).Contents (Elt Ideal)) (x3 : (⟨S64x3, .f32⟩ : BufTy).Contents (Elt Ideal)) (x4 : (⟨S64, .f32⟩ : BufTy).Contents (Elt Ideal)) (x5 : (⟨S128x64, .f32⟩ : BufTy).Contents (Elt Ideal)) (x6 : (⟨S128, .f32⟩ : BufTy).Contents (Elt Ideal)) (x7 : (⟨S256x128, .f32⟩ : BufTy).Contents (Elt Ideal)) (x8 : (⟨S256, .f32⟩ : BufTy).Contents (Elt Ideal)) (b : Fin 8) (mm : Fin 2048) (e : Fin 256) :
    val_main_v20 (F := Ideal) x0 x1 x2 x3 x4 x5 x6 x7 x8 (ix3 b mm e)
      = Cert.RowNet.pooled (fun o c => x3 (ix2 o c)) (fun o => x4 (ix1 o)) (fun o c => x5 (ix2 o c)) (fun o => x6 (ix1 o))
          (fun o c => x7 (ix2 o c)) (fun o => x8 (ix1 o)) (fun k c => val_main_v5 (F := Ideal) x0 x1 x2 (ix4 b mm k c)) e := by
  have h : S8x2048x32x256.Reduces [2] S8x2048x256 := by decide
  unfold val_main_v20
  refine (Host.reduce_eq_fold_single (α := Ideal .f32) (FloatOps.maximumf (F := Ideal) (φ := .f32))
    (val_main_v19 (F := Ideal) x0 x1 x2 x3 x4 x5 x6 x7 x8)
    (val_main_cst (F := Ideal)) Gen.reducesTo_S8x2048x32x256_S8x2048x256_d2 h Gen.h_S_ (ix3 b mm e)).trans ?_
  unfold Cert.RowNet.pooled
  show (Finset.univ : Finset (Fin 32)).fold max Cert.RowNet.bottomWord
      (fun k : Fin 32 => val_main_v19 (F := Ideal) x0 x1 x2 x3 x4 x5 x6 x7 x8 (h.lift (ix3 b mm e) k)) = _
  refine Finset.fold_congr fun k _ => ?_
  rw [lift_at h b mm e k]
  exact layer3_apply x0 x1 x2 x3 x4 x5 x6 x7 x8 b mm k e

end Cert.ReferenceIdeal.RefValue

end
-- ==== Proof.Bridge.lean ====
/-
  The two results are one function of the arguments. The kernel's output array is the pooled network of the arrays its region finds:
  the offset array is the reference's centre-subtracted neighbour array with (centre, neighbour) flattened to one row axis and narrowed
  (the identity on the extended reals), the weight arrays are the arguments transposed, the biases the arguments as one-row arrays. Read
  at an index through those layout operations, the kernel's function is the reference's last stage read at the same index: the same
  rows, the same weights, the same fold.
-/
import proofs.«417574_j5583457485374_3_alg».proof.Proof.KernelFinal
import proofs.«417574_j5583457485374_3_alg».proof.Proof.HostValue
import proofs.«417574_j5583457485374_3_alg».proof.Proof.RefValue

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel's output array is the reference's result of the same arguments. -/
theorem final_eq_ref (c : Dev nD) :
    Cert.KernelIdeal.ArrayValue.finalFn m c
      = Cert.ReferenceIdeal.ReadValue.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, mm, e, rfl⟩ : ∃ (b : Fin 8) (mm : Fin 2048) (e : Fin 256), i = ix3 b mm e := ⟨i 0, i 1, i 2, eq_ix3 i⟩
  rw [Cert.ReferenceIdeal.RefValue.result_apply]
  unfold Cert.KernelIdeal.ArrayValue.finalFn Cert.KernelIdeal.ArrayValue.finalOf
  exact Cert.RowNet.pooled_congr (fun o ch => Cert.KernelIdeal.HostValue.w1_apply m c ch o) (fun o => Cert.KernelIdeal.HostValue.b1_apply m c o)
    (fun o ch => Cert.KernelIdeal.HostValue.w2_apply m c ch o) (fun o => Cert.KernelIdeal.HostValue.b2_apply m c o)
    (fun o ch => Cert.KernelIdeal.HostValue.w3_apply m c ch o) (fun o => Cert.KernelIdeal.HostValue.b3_apply m c o)
    (fun k ch => Cert.KernelIdeal.HostValue.local_apply m c b mm k ch) e

end Cert.KernelIdeal.Bridge

end
-- ==== Proof.lean ====
/-
  The certificate of a point-cloud feature kernel against its reference.

  Both programs gather each centre's 32 nearest-neighbour points, subtract the centre, send every offset vector through a three-layer
  pointwise network (affine, rectifier, affine, rectifier, affine) and keep, per centre and channel, the maximum over the neighbours.
  The reference does it with three whole-array contractions and one reduction. The kernel does the gather and the subtraction on the host
  exactly as the reference does, then runs the network in one grid of (batch, quarter) points, each point in sixteen chunks of 32 centres,
  with the weights transposed beforehand and the activations narrowed between layers. On the extended reals narrowing is the identity,
  a matrix product is the plain sum of products whichever way it is tiled, and the maximum over the neighbours is the same fold: the two
  results are equal index by index, with no appeal to finiteness of the inputs (no sum is regrouped across an infinity).

  The frames of the two kernel programs are the generated ones; the reference's frame is its run with the result dropped; the
  idealization rewrote nothing, so `preserves` is `True`.
-/
import proofs.«417574_j5583457485374_3_alg».proof.Defs
import proofs.«417574_j5583457485374_3_alg».proof.Proof.Gen.Kernel
import proofs.«417574_j5583457485374_3_alg».proof.Proof.Gen.Kernel.Skeleton
import proofs.«417574_j5583457485374_3_alg».proof.Proof.Gen.Kernel.Launch
import proofs.«417574_j5583457485374_3_alg».proof.Proof.Gen.Kernel.Points
import proofs.«417574_j5583457485374_3_alg».proof.Proof.Gen.Kernel.Frame
import proofs.«417574_j5583457485374_3_alg».proof.Proof.Gen.KernelIdeal
import proofs.«417574_j5583457485374_3_alg».proof.Proof.Gen.KernelIdeal.Skeleton
import proofs.«417574_j5583457485374_3_alg».proof.Proof.Gen.KernelIdeal.Launch
import proofs.«417574_j5583457485374_3_alg».proof.Proof.Gen.KernelIdeal.Points
import proofs.«417574_j5583457485374_3_alg».proof.Proof.Gen.KernelIdeal.Frame
import proofs.«417574_j5583457485374_3_alg».proof.Proof.Gen.ReferenceIdeal
import proofs.«417574_j5583457485374_3_alg».proof.Proof.Gen.KernelIdeal.Value
import proofs.«417574_j5583457485374_3_alg».proof.Proof.RefRun
import proofs.«417574_j5583457485374_3_alg».proof.Proof.RefRead
import proofs.«417574_j5583457485374_3_alg».proof.Proof.Gen.Pre_finite_inputs
import proofs.«417574_j5583457485374_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- From memories agreeing on the arguments both programs end with the pooled network of the arguments: the kernel's output array is
    that function of the arrays its region finds, which is the reference's last stage of the arguments. -/
theorem algebraic : Cert.algebraic_KernelIdeal_ReferenceIdeal := by
  intro m ρ m' ρ' _ hagree
  refine ⟨fun c => Cert.KernelIdeal.ArrayValue.finalFn m c, Cert.KernelIdeal.ArrayValue.run m ρ, ?_⟩
  refine (θ_run Cert.ReferenceIdeal.defs _ _).mono (fun _ h c => ⟨(h c).1.trans ?_, (h c).2⟩)
    (Cert.ReferenceIdeal.RunValue.run (F := Ideal) m' ρ')
  obtain ⟨a0, a1, a2, a3, a4, a5, a6, a7, a8⟩ := hagree c
  rw [Cert.ReferenceIdeal.ReadValue.val_main_v20_eq, a0, a1, a2, a3, a4, a5, a6, a7, a8]
  exact (Cert.KernelIdeal.Bridge.final_eq_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
